-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v32)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v32) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v34) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x512 : Shape := ⟨2, ![50000, 512]⟩
abbrev S800000 : Shape := ⟨1, ![800000]⟩
abbrev S512x128 : Shape := ⟨2, ![512, 128]⟩
abbrev S128 : Shape := ⟨1, ![128]⟩
abbrev S128x40 : Shape := ⟨2, ![128, 40]⟩
abbrev S40 : Shape := ⟨1, ![40]⟩
abbrev S_ : Shape := ⟨0, ![]⟩

class Facts : Prop where
  bcast_S_S50000x512 : S_.BroadcastsInDim S50000x512 (![] : Fin 0 → Fin S50000x512.rank)
  reducesTo_S50000x512_S_d0_1 : S50000x512.ReducesTo [0, 1] S_
  h_S_ : 0 < S_.numel
  bcast_S_S800000 : S_.BroadcastsInDim S800000 (![] : Fin 0 → Fin S800000.rank)
  reducesTo_S800000_S_d0 : S800000.ReducesTo [0] S_
  bcast_S_S512x128 : S_.BroadcastsInDim S512x128 (![] : Fin 0 → Fin S512x128.rank)
  reducesTo_S512x128_S_d0_1 : S512x128.ReducesTo [0, 1] S_
  bcast_S_S128 : S_.BroadcastsInDim S128 (![] : Fin 0 → Fin S128.rank)
  reducesTo_S128_S_d0 : S128.ReducesTo [0] S_
  bcast_S_S128x40 : S_.BroadcastsInDim S128x40 (![] : Fin 0 → Fin S128x40.rank)
  reducesTo_S128x40_S_d0_1 : S128x40.ReducesTo [0, 1] S_
  bcast_S_S40 : S_.BroadcastsInDim S40 (![] : Fin 0 → Fin S40.rank)
  reducesTo_S40_S_d0 : S40.ReducesTo [0] S_

variable [Facts]

def fn_part1 {F : FTy → Type} [FloatOps F] (main_arg6 : FVec F S128x40 .f32) (main_arg7 : FVec F S40 .f32) (main_v13 : IVec S_ 1) (main_v16 : IVec S128 1) : IVec S_ 1 :=
  let main_c_5 : IVec S_ 1 := constantI S_ 1 1#1
  let main_v17 : IVec S_ 1 := (fun x v => Host.reduce IntOp.andi x v reducesTo_S128_S_d0 h_S_) main_v16 main_c_5
  let main_v18 : IVec S_ 1 := andi main_v13 main_v17
  let main_v19 : FVec F S128x40 .f32 := Host.absf main_arg6
  let main_cst_6 : FVec F S_ .f32 := constant S_ .f32 0x7F800000#32
  let main_v20 : FVec F S128x40 .f32 := broadcastInDim S128x40 ![] bcast_S_S128x40 main_cst_6
  let main_v21 : IVec S128x40 1 := cmpf .olt main_v19 main_v20
  let main_c_7 : IVec S_ 1 := constantI S_ 1 1#1
  let main_v22 : IVec S_ 1 := (fun x v => Host.reduce IntOp.andi x v reducesTo_S128x40_S_d0_1 h_S_) main_v21 main_c_7
  let main_v23 : IVec S_ 1 := andi main_v18 main_v22
  let main_v24 : FVec F S40 .f32 := Host.absf main_arg7
  let main_cst_8 : FVec F S_ .f32 := constant S_ .f32 0x7F800000#32
  let main_v25 : FVec F S40 .f32 := broadcastInDim S40 ![] bcast_S_S40 main_cst_8
  let main_v26 : IVec S40 1 := cmpf .olt main_v24 main_v25
  let main_c_9 : IVec S_ 1 := constantI S_ 1 1#1
  let main_v27 : IVec S_ 1 := (fun x v => Host.reduce IntOp.andi x v reducesTo_S40_S_d0 h_S_) main_v26 main_c_9
  let main_v28 : IVec S_ 1 := andi main_v23 main_v27
  main_v28

def fn {F : FTy → Type} [FloatOps F] (main_arg0 : FVec F S50000x512 .f32) (main_arg1 : IVec S800000 32) (main_arg2 : IVec S800000 32) (main_arg3 : FVec F S800000 .f32) (main_arg4 : FVec F S512x128 .f32) (main_arg5 : FVec F S128 .f32) (main_arg6 : FVec F S128x40 .f32) (main_arg7 : FVec F S40 .f32) : IVec S_ 1 :=
  let main_v0 : FVec F S50000x512 .f32 := Host.absf main_arg0
  let main_cst : FVec F S_ .f32 := constant S_ .f32 0x7F800000#32
  let main_v1 : FVec F S50000x512 .f32 := broadcastInDim S50000x512 ![] bcast_S_S50000x512 main_cst
  let main_v2 : IVec S50000x512 1 := cmpf .olt main_v0 main_v1
  let main_c : IVec S_ 1 := constantI S_ 1 1#1
  let main_v3 : IVec S_ 1 := (fun x v => Host.reduce IntOp.andi x v reducesTo_S50000x512_S_d0_1 h_S_) main_v2 main_c
  let main_v4 : FVec F S800000 .f32 := Host.absf main_arg3
  let main_cst_0 : FVec F S_ .f32 := constant S_ .f32 0x7F800000#32
  let main_v5 : FVec F S800000 .f32 := broadcastInDim S800000 ![] bcast_S_S800000 main_cst_0
  let main_v6 : IVec S800000 1 := cmpf .olt main_v4 main_v5
  let main_c_1 : IVec S_ 1 := constantI S_ 1 1#1
  let main_v7 : IVec S_ 1 := (fun x v => Host.reduce IntOp.andi x v reducesTo_S800000_S_d0 h_S_) main_v6 main_c_1
  let main_v8 : IVec S_ 1 := andi main_v3 main_v7
  let main_v9 : FVec F S512x128 .f32 := Host.absf main_arg4
  let main_cst_2 : FVec F S_ .f32 := constant S_ .f32 0x7F800000#32
  let main_v10 : FVec F S512x128 .f32 := broadcastInDim S512x128 ![] bcast_S_S512x128 main_cst_2
  let main_v11 : IVec S512x128 1 := cmpf .olt main_v9 main_v10
  let main_c_3 : IVec S_ 1 := constantI S_ 1 1#1
  let main_v12 : IVec S_ 1 := (fun x v => Host.reduce IntOp.andi x v reducesTo_S512x128_S_d0_1 h_S_) main_v11 main_c_3
  let main_v13 : IVec S_ 1 := andi main_v8 main_v12
  let main_v14 : FVec F S128 .f32 := Host.absf main_arg5
  let main_cst_4 : FVec F S_ .f32 := constant S_ .f32 0x7F800000#32
  let main_v15 : FVec F S128 .f32 := broadcastInDim S128 ![] bcast_S_S128 main_cst_4
  let main_v16 : IVec S128 1 := cmpf .olt main_v14 main_v15
  fn_part1 (F := F) main_arg6 main_arg7 main_v13 main_v16
-- ==== Kernel.lean ====
abbrev S50000x512 : Shape := ⟨2, ![50000, 512]⟩
abbrev S800000 : Shape := ⟨1, ![800000]⟩
abbrev S512x128 : Shape := ⟨2, ![512, 128]⟩
abbrev S128 : Shape := ⟨1, ![128]⟩
abbrev S128x40 : Shape := ⟨2, ![128, 40]⟩
abbrev S40 : Shape := ⟨1, ![40]⟩
abbrev S50000x128 : Shape := ⟨2, ![50000, 128]⟩
abbrev S2000x512 : Shape := ⟨2, ![2000, 512]⟩
abbrev S2000x128 : Shape := ⟨2, ![2000, 128]⟩
abbrev S_ : Shape := ⟨0, ![]⟩
abbrev S800000x1 : Shape := ⟨2, ![800000, 1]⟩
abbrev S800000x128 : Shape := ⟨2, ![800000, 128]⟩
abbrev S1x128 : Shape := ⟨2, ![1, 128]⟩
abbrev S50000x40 : Shape := ⟨2, ![50000, 40]⟩
abbrev S2000x40 : Shape := ⟨2, ![2000, 40]⟩
abbrev S800000x40 : Shape := ⟨2, ![800000, 40]⟩
abbrev S1x40 : Shape := ⟨2, ![1, 40]⟩

abbrev nBuf : Space → Nat
  | .hbm => 47
  | .vmem => 15
  | .smem => 0
  | _ => 0

abbrev bufTy : (tb : Table) → Fin (tcTables nBuf tb) → BufTy
  | .hbm, ⟨0, _⟩ => ⟨S50000x512, .f32⟩
  | .hbm, ⟨1, _⟩ => ⟨S800000, .i32⟩
  | .hbm, ⟨2, _⟩ => ⟨S800000, .i32⟩
  | .hbm, ⟨3, _⟩ => ⟨S800000, .f32⟩
  | .hbm, ⟨4, _⟩ => ⟨S512x128, .f32⟩
  | .hbm, ⟨5, _⟩ => ⟨S128, .f32⟩
  | .hbm, ⟨6, _⟩ => ⟨S128x40, .f32⟩
  | .hbm, ⟨7, _⟩ => ⟨S40, .f32⟩
  | .hbm, ⟨8, _⟩ => ⟨S50000x128, .f32⟩
  | .hbm, ⟨9, _⟩ => ⟨S_, .i32⟩
  | .hbm, ⟨10, _⟩ => ⟨S800000, .i32⟩
  | .hbm, ⟨11, _⟩ => ⟨S800000, .i1⟩
  | .hbm, ⟨12, _⟩ => ⟨S_, .i32⟩
  | .hbm, ⟨13, _⟩ => ⟨S800000, .i32⟩
  | .hbm, ⟨14, _⟩ => ⟨S800000, .i32⟩
  | .hbm, ⟨15, _⟩ => ⟨S800000, .i32⟩
  | .hbm, ⟨16, _⟩ => ⟨S800000x1, .i32⟩
  | .hbm, ⟨17, _⟩ => ⟨S800000x128, .f32⟩
  | .hbm, ⟨18, _⟩ => ⟨S800000x1, .f32⟩
  | .hbm, ⟨19, _⟩ => ⟨S800000x128, .f32⟩
  | .hbm, ⟨20, _⟩ => ⟨S800000x128, .f32⟩
  | .hbm, ⟨21, _⟩ => ⟨S_, .f32⟩
  | .hbm, ⟨22, _⟩ => ⟨S50000x128, .f32⟩
  | .hbm, ⟨23, _⟩ => ⟨S800000x1, .i32⟩
  | .hbm, ⟨24, _⟩ => ⟨S50000x128, .f32⟩
  | .hbm, ⟨25, _⟩ => ⟨S1x128, .f32⟩
  | .hbm, ⟨26, _⟩ => ⟨S50000x128, .f32⟩
  | .hbm, ⟨27, _⟩ => ⟨S50000x40, .f32⟩
  | .hbm, ⟨28, _⟩ => ⟨S_, .i32⟩
  | .hbm, ⟨29, _⟩ => ⟨S800000, .i32⟩
  | .hbm, ⟨30, _⟩ => ⟨S800000, .i1⟩
  | .hbm, ⟨31, _⟩ => ⟨S_, .i32⟩
  | .hbm, ⟨32, _⟩ => ⟨S800000, .i32⟩
  | .hbm, ⟨33, _⟩ => ⟨S800000, .i32⟩
  | .hbm, ⟨34, _⟩ => ⟨S800000, .i32⟩
  | .hbm, ⟨35, _⟩ => ⟨S800000x1, .i32⟩
  | .hbm, ⟨36, _⟩ => ⟨S800000x40, .f32⟩
  | .hbm, ⟨37, _⟩ => ⟨S800000x1, .f32⟩
  | .hbm, ⟨38, _⟩ => ⟨S800000x40, .f32⟩
  | .hbm, ⟨39, _⟩ => ⟨S800000x40, .f32⟩
  | .hbm, ⟨40, _⟩ => ⟨S_, .f32⟩
  | .hbm, ⟨41, _⟩ => ⟨S50000x40, .f32⟩
  | .hbm, ⟨42, _⟩ => ⟨S800000x1, .i32⟩
  | .hbm, ⟨43, _⟩ => ⟨S50000x40, .f32⟩
  | .hbm, ⟨44, _⟩ => ⟨S1x40, .f32⟩
  | .hbm, ⟨45, _⟩ => ⟨S50000x40, .f32⟩
  | .hbm, ⟨46, _⟩ => ⟨S50000x40, .f32⟩
  | .local _ .vmem, ⟨0, _⟩ => ⟨S2000x512, .f32⟩
  | .local _ .vmem, ⟨1, _⟩ => ⟨S2000x512, .f32⟩
  | .local _ .vmem, ⟨2, _⟩ => ⟨S512x128, .f32⟩
  | .local _ .vmem, ⟨3, _⟩ => ⟨S2000x128, .f32⟩
  | .local _ .vmem, ⟨4, _⟩ => ⟨S2000x128, .f32⟩
  | .local _ .vmem, ⟨5, _⟩ => ⟨S2000x128, .f32⟩
  | .local _ .vmem, ⟨6, _⟩ => ⟨S2000x128, .f32⟩
  | .local _ .vmem, ⟨7, _⟩ => ⟨S1x128, .f32⟩
  | .local _ .vmem, ⟨8, _⟩ => ⟨S2000x128, .f32⟩
  | .local _ .vmem, ⟨9, _⟩ => ⟨S2000x128, .f32⟩
  | .local _ .vmem, ⟨10, _⟩ => ⟨S2000x128, .f32⟩
  | .local _ .vmem, ⟨11, _⟩ => ⟨S2000x128, .f32⟩
  | .local _ .vmem, ⟨12, _⟩ => ⟨S128x40, .f32⟩
  | .local _ .vmem, ⟨13, _⟩ => ⟨S2000x40, .f32⟩
  | .local _ .vmem, ⟨14, _⟩ => ⟨S2000x40, .f32⟩
  | _, _ => ⟨S50000x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_c : Ref sig .tc := ⟨.hbm, 9, rfl⟩
abbrev main_v1 : Ref sig .tc := ⟨.hbm, 10, rfl⟩
abbrev main_v2 : Ref sig .tc := ⟨.hbm, 11, rfl⟩
abbrev main_c_0 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_cst : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_c_1 : Ref sig .tc := ⟨.hbm, 28, rfl⟩
abbrev main_v17 : Ref sig .tc := ⟨.hbm, 29, rfl⟩
abbrev main_v18 : Ref sig .tc := ⟨.hbm, 30, rfl⟩
abbrev main_c_2 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_cst_3 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg2_1 : Ref sig .tc := ⟨.vmem, 9, rfl⟩
abbrev cc2_stg0_0 : Ref sig .tc := ⟨.vmem, 10, rfl⟩
abbrev cc2_stg0_1 : Ref sig .tc := ⟨.vmem, 11, rfl⟩
abbrev cc2_stg1_0 : Ref sig .tc := ⟨.vmem, 12, rfl⟩
abbrev cc2_stg2_0 : Ref sig .tc := ⟨.vmem, 13, rfl⟩
abbrev cc2_stg2_1 : Ref sig .tc := ⟨.vmem, 14, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem2_1 : DmaSem sig := 9
abbrev cc2_sem0_0 : DmaSem sig := 10
abbrev cc2_sem0_1 : DmaSem sig := 11
abbrev cc2_sem1_0 : DmaSem sig := 12
abbrev cc2_sem2_0 : DmaSem sig := 13
abbrev cc2_sem2_1 : DmaSem sig := 14

abbrev nD : Nat := 1
abbrev τ : Topo := Topo.v7x

variable {F : FTy → Type} [FloatOps F]

abbrev grid0 : Pipeline.Grid := ⟨1, ![25], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2000x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S512x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S2000x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![25], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S2000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S1x128 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 2 → Memref sig .tc .vmem S2000x128 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev grid2 : Pipeline.Grid := ⟨1, ![25], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S2000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S128x40 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 2 → Memref sig .tc .vmem S2000x40 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

class Facts₀ : Prop where
  inb_S2000x512_S2000x512_0_0 : ∀ a, (![0, 0] : Fin 2 → Nat) a + S2000x512.size a ≤ S2000x512.size a
  h_S2000x512 : 0 < S2000x512.numel
  bitsLt_bf16_f32 : FTy.bits .bf16 < FTy.bits .f32
  inb_S512x128_S512x128_0_0 : ∀ a, (![0, 0] : Fin 2 → Nat) a + S512x128.size a ≤ S512x128.size a
  h_S512x128 : 0 < S512x128.numel
  inb_S2000x128_S2000x128_0_0 : ∀ a, (![0, 0] : Fin 2 → Nat) a + S2000x128.size a ≤ S2000x128.size a
  h_S2000x128 : 0 < S2000x128.numel
  bcast_S_S800000 : S_.BroadcastsInDim S800000 (![] : Fin 0 → Fin S800000.rank)
  bcast_S800000_S800000x1_0 : S800000.BroadcastsInDim S800000x1 (![0] : Fin 1 → Fin S800000x1.rank)
  bcast_S800000x1_S800000x128_0_1 : S800000x1.BroadcastsInDim S800000x128 (![0, 1] : Fin 2 → Fin S800000x128.rank)
  bcast_S_S50000x128 : S_.BroadcastsInDim S50000x128 (![] : Fin 0 → Fin S50000x128.rank)
  shapeCasts_S128_S1x128 : S128.ShapeCasts S1x128
  shapeCasts_S2000x128_S2000x128 : S2000x128.ShapeCasts S2000x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S2000x128 : S1x128.Broadcasts S2000x128
  inb_S128x40_S128x40_0_0 : ∀ a, (![0, 0] : Fin 2 → Nat) a + S128x40.size a ≤ S128x40.size a
  h_S128x40 : 0 < S128x40.numel
  inb_S2000x40_S2000x40_0_0 : ∀ a, (![0, 0] : Fin 2 → Nat) a + S2000x40.size a ≤ S2000x40.size a
  h_S2000x40 : 0 < S2000x40.numel
  bcast_S800000x1_S800000x40_0_1 : S800000x1.BroadcastsInDim S800000x40 (![0, 1] : Fin 2 → Fin S800000x40.rank)
  bcast_S_S50000x40 : S_.BroadcastsInDim S50000x40 (![] : Fin 0 → Fin S50000x40.rank)
  bcast_S40_S1x40_1 : S40.BroadcastsInDim S1x40 (![1] : Fin 1 → Fin S1x40.rank)
  bcast_S1x40_S50000x40_0_1 : S1x40.BroadcastsInDim S50000x40 (![0, 1] : Fin 2 → Fin S50000x40.rank)
  dot_S2000x512_S512x128_S2000x128_1_0_0_1_n_n_wf : DotDims.WF S2000x512 S512x128 S2000x128 [1] [0] [0] [1] [] []
  gather_S50000x128_S800000x1_S800000x128_1_0_n_n_0_1_1128_wf : GatherDims.WF S50000x128 S800000x1 S800000x128 [1] [0] [] [0] [] 1 ![1, 128]
  scatter_S50000x128_S800000x1_S800000x128_1_0_0_1_wf : ScatterDims.WF S50000x128 S800000x1 S800000x128 [1] [0] [0] 1
  dot_S2000x128_S128x40_S2000x40_1_0_0_1_n_n_wf : DotDims.WF S2000x128 S128x40 S2000x40 [1] [0] [0] [1] [] []
  gather_S50000x40_S800000x1_S800000x40_1_0_n_n_0_1_140_wf : GatherDims.WF S50000x40 S800000x1 S800000x40 [1] [0] [] [0] [] 1 ![1, 40]
  scatter_S50000x40_S800000x1_S800000x40_1_0_0_1_wf : ScatterDims.WF S50000x40 S800000x1 S800000x40 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2000x512.size a ≤ S50000x512.size a
  hwx0_0 : ∀ i : grid0.Coords, EltTy.bits .f32 = 32 ∨ (Rect.block (s := S50000x512) S2000x512.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S512x128.size a ≤ S512x128.size a
  hwx0_1 : ∀ i : grid0.Coords, EltTy.bits .f32 = 32 ∨ (Rect.block (s := S512x128) S512x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S2000x128.size a ≤ S50000x128.size a
  hwx0_2 : ∀ i : grid0.Coords, EltTy.bits .f32 = 32 ∨ (Rect.block (s := S50000x128) S2000x128.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S2000x128.size a ≤ S50000x128.size a
  hwx1_0 : ∀ i : grid1.Coords, EltTy.bits .f32 = 32 ∨ (Rect.block (s := S50000x128) S2000x128.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S1x128.size a ≤ S1x128.size a
  hwx1_1 : ∀ i : grid1.Coords, EltTy.bits .f32 = 32 ∨ (Rect.block (s := S1x128) S1x128.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S2000x128.size a ≤ S50000x128.size a
  hwx1_2 : ∀ i : grid1.Coords, EltTy.bits .f32 = 32 ∨ (Rect.block (s := S50000x128) S2000x128.size (cc1_transform_2 i) (hinb1_2 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S2000x128.size a ≤ S50000x128.size a
  hwx2_0 : ∀ i : grid2.Coords, EltTy.bits .f32 = 32 ∨ (Rect.block (s := S50000x128) S2000x128.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S128x40.size a ≤ S128x40.size a
  hwx2_1 : ∀ i : grid2.Coords, EltTy.bits .f32 = 32 ∨ (Rect.block (s := S128x40) S128x40.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S2000x40.size a ≤ S50000x40.size a
  hwx2_2 : ∀ i : grid2.Coords, EltTy.bits .f32 = 32 ∨ (Rect.block (s := S50000x40) S2000x40.size (cc2_transform_2 i) (hinb2_2 i)).WholeWords (EltTy.packing .f32)

variable [Facts₀]

def dot_S2000x512_S512x128_S2000x128_1_0_0_1_n_n : DotDims S2000x512 S512x128 S2000x128 where
  lhsContracting := [1]
  rhsContracting := [0]
  lhsNonContracting := [0]
  rhsNonContracting := [1]
  lhsBatch := []
  rhsBatch := []
  wf := dot_S2000x512_S512x128_S2000x128_1_0_0_1_n_n_wf
def gather_S50000x128_S800000x1_S800000x128_1_0_n_n_0_1_1128 : GatherDims S50000x128 S800000x1 S800000x128 where
  offsetDims := [1]
  collapsedSliceDims := [0]
  operandBatchingDims := []
  startIndicesBatchingDims := []
  startIndexMap := [0]
  indexVectorDim := 1
  sliceSizes := ![1, 128]
  wf := gather_S50000x128_S800000x1_S800000x128_1_0_n_n_0_1_1128_wf
def scatter_S50000x128_S800000x1_S800000x128_1_0_0_1 : ScatterDims S50000x128 S800000x1 S800000x128 where
  updateWindowDims := [1]
  insertedWindowDims := [0]
  scatterDimsToOperandDims := [0]
  indexVectorDim := 1
  wf := scatter_S50000x128_S800000x1_S800000x128_1_0_0_1_wf
def dot_S2000x128_S128x40_S2000x40_1_0_0_1_n_n : DotDims S2000x128 S128x40 S2000x40 where
  lhsContracting := [1]
  rhsContracting := [0]
  lhsNonContracting := [0]
  rhsNonContracting := [1]
  lhsBatch := []
  rhsBatch := []
  wf := dot_S2000x128_S128x40_S2000x40_1_0_0_1_n_n_wf
def gather_S50000x40_S800000x1_S800000x40_1_0_n_n_0_1_140 : GatherDims S50000x40 S800000x1 S800000x40 where
  offsetDims := [1]
  collapsedSliceDims := [0]
  operandBatchingDims := []
  startIndicesBatchingDims := []
  startIndexMap := [0]
  indexVectorDim := 1
  sliceSizes := ![1, 40]
  wf := gather_S50000x40_S800000x1_S800000x40_1_0_n_n_0_1_140_wf
def scatter_S50000x40_S800000x1_S800000x40_1_0_0_1 : ScatterDims S50000x40 S800000x1 S800000x40 where
  updateWindowDims := [1]
  insertedWindowDims := [0]
  scatterDimsToOperandDims := [0]
  indexVectorDim := 1
  wf := scatter_S50000x40_S800000x1_S800000x40_1_0_0_1_wf

abbrev win0_0 : Pipeline.Window sig grid0 :=
  Pipeline.Window.ofSpec (Memref.whole main_arg0) S2000x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg4) S512x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v0) S2000x128.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v13) S2000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v14) S1x128.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v15) S2000x128.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

abbrev win2_0 : Pipeline.Window sig grid2 :=
  Pipeline.Window.ofSpec (Memref.whole main_v15) S2000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_arg6) S128x40.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v16) S2000x40.size cc2_transform_2 reads2_2 true false 2 stage2_2 sem2_2
    hrank2 hreads2_2 hinb2_2 nbuf2_2 (Memref.isWhole_whole _) hwx2_2 hstage2_2

abbrev win2 : Fin 3 → Pipeline.Window sig grid2 := fun | 0 => win2_0 | 1 => win2_1 | 2 => win2_2 | ⟨_ + 3, h⟩ => absurd h (Nat.not_lt.2 (Nat.le_add_left _ _))
abbrev spec2 : Fin 3 → Pipeline.WinSpec sig grid2.rank := fun w => (win2 w).toWinSpec

class Facts : Prop extends Facts₀ where

variable [Facts]
-- ==== ReferenceIdeal.lean ====
abbrev S50000x512 : Shape := ⟨2, ![50000, 512]⟩
abbrev S800000 : Shape := ⟨1, ![800000]⟩
abbrev S512x128 : Shape := ⟨2, ![512, 128]⟩
abbrev S128 : Shape := ⟨1, ![128]⟩
abbrev S128x40 : Shape := ⟨2, ![128, 40]⟩
abbrev S40 : Shape := ⟨1, ![40]⟩
abbrev S50000x128 : Shape := ⟨2, ![50000, 128]⟩
abbrev S800000x1 : Shape := ⟨2, ![800000, 1]⟩
abbrev S_ : Shape := ⟨0, ![]⟩
abbrev S800000x128 : Shape := ⟨2, ![800000, 128]⟩
abbrev S1x128 : Shape := ⟨2, ![1, 128]⟩
abbrev S50000x40 : Shape := ⟨2, ![50000, 40]⟩
abbrev S800000x40 : Shape := ⟨2, ![800000, 40]⟩
abbrev S1x40 : Shape := ⟨2, ![1, 40]⟩

abbrev nBuf : Space → Nat
  | .hbm => 51
  | .vmem => 0
  | .smem => 0
  | _ => 0

abbrev bufTy : (tb : Table) → Fin (tcTables nBuf tb) → BufTy
  | .hbm, ⟨0, _⟩ => ⟨S50000x512, .f32⟩
  | .hbm, ⟨1, _⟩ => ⟨S800000, .i32⟩
  | .hbm, ⟨2, _⟩ => ⟨S800000, .i32⟩
  | .hbm, ⟨3, _⟩ => ⟨S800000, .f32⟩
  | .hbm, ⟨4, _⟩ => ⟨S512x128, .f32⟩
  | .hbm, ⟨5, _⟩ => ⟨S128, .f32⟩
  | .hbm, ⟨6, _⟩ => ⟨S128x40, .f32⟩
  | .hbm, ⟨7, _⟩ => ⟨S40, .f32⟩
  | .hbm, ⟨8, _⟩ => ⟨S50000x128, .f32⟩
  | .hbm, ⟨9, _⟩ => ⟨S800000x1, .f32⟩
  | .hbm, ⟨10, _⟩ => ⟨S_, .i32⟩
  | .hbm, ⟨11, _⟩ => ⟨S800000, .i32⟩
  | .hbm, ⟨12, _⟩ => ⟨S800000, .i1⟩
  | .hbm, ⟨13, _⟩ => ⟨S_, .i32⟩
  | .hbm, ⟨14, _⟩ => ⟨S800000, .i32⟩
  | .hbm, ⟨15, _⟩ => ⟨S800000, .i32⟩
  | .hbm, ⟨16, _⟩ => ⟨S800000, .i32⟩
  | .hbm, ⟨17, _⟩ => ⟨S800000x1, .i32⟩
  | .hbm, ⟨18, _⟩ => ⟨S800000x128, .f32⟩
  | .hbm, ⟨19, _⟩ => ⟨S800000x128, .f32⟩
  | .hbm, ⟨20, _⟩ => ⟨S800000x128, .f32⟩
  | .hbm, ⟨21, _⟩ => ⟨S_, .f32⟩
  | .hbm, ⟨22, _⟩ => ⟨S50000x128, .f32⟩
  | .hbm, ⟨23, _⟩ => ⟨S800000x1, .i32⟩
  | .hbm, ⟨24, _⟩ => ⟨S50000x128, .f32⟩
  | .hbm, ⟨25, _⟩ => ⟨S1x128, .f32⟩
  | .hbm, ⟨26, _⟩ => ⟨S50000x128, .f32⟩
  | .hbm, ⟨27, _⟩ => ⟨S50000x128, .f32⟩
  | .hbm, ⟨28, _⟩ => ⟨S_, .f32⟩
  | .hbm, ⟨29, _⟩ => ⟨S50000x128, .f32⟩
  | .hbm, ⟨30, _⟩ => ⟨S50000x128, .f32⟩
  | .hbm, ⟨31, _⟩ => ⟨S50000x40, .f32⟩
  | .hbm, ⟨32, _⟩ => ⟨S800000x1, .f32⟩
  | .hbm, ⟨33, _⟩ => ⟨S_, .i32⟩
  | .hbm, ⟨34, _⟩ => ⟨S800000, .i32⟩
  | .hbm, ⟨35, _⟩ => ⟨S800000, .i1⟩
  | .hbm, ⟨36, _⟩ => ⟨S_, .i32⟩
  | .hbm, ⟨37, _⟩ => ⟨S800000, .i32⟩
  | .hbm, ⟨38, _⟩ => ⟨S800000, .i32⟩
  | .hbm, ⟨39, _⟩ => ⟨S800000, .i32⟩
  | .hbm, ⟨40, _⟩ => ⟨S800000x1, .i32⟩
  | .hbm, ⟨41, _⟩ => ⟨S800000x40, .f32⟩
  | .hbm, ⟨42, _⟩ => ⟨S800000x40, .f32⟩
  | .hbm, ⟨43, _⟩ => ⟨S800000x40, .f32⟩
  | .hbm, ⟨44, _⟩ => ⟨S_, .f32⟩
  | .hbm, ⟨45, _⟩ => ⟨S50000x40, .f32⟩
  | .hbm, ⟨46, _⟩ => ⟨S800000x1, .i32⟩
  | .hbm, ⟨47, _⟩ => ⟨S50000x40, .f32⟩
  | .hbm, ⟨48, _⟩ => ⟨S1x40, .f32⟩
  | .hbm, ⟨49, _⟩ => ⟨S50000x40, .f32⟩
  | .hbm, ⟨50, _⟩ => ⟨S50000x40, .f32⟩
  | _, _ => ⟨S50000x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_c : Ref sig .tc := ⟨.hbm, 10, rfl⟩
abbrev main_v2 : Ref sig .tc := ⟨.hbm, 11, rfl⟩
abbrev main_v3 : Ref sig .tc := ⟨.hbm, 12, rfl⟩
abbrev main_c_0 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_cst : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_call0_cst : Ref sig .tc := ⟨.hbm, 28, rfl⟩
abbrev main_call0_v0 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_c_1 : Ref sig .tc := ⟨.hbm, 33, rfl⟩
abbrev main_v20 : Ref sig .tc := ⟨.hbm, 34, rfl⟩
abbrev main_v21 : Ref sig .tc := ⟨.hbm, 35, rfl⟩
abbrev main_c_2 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_cst_3 : Ref sig .tc := ⟨.hbm, 44, rfl⟩
abbrev main_v29 : Ref sig .tc := ⟨.hbm, 45, rfl⟩
abbrev main_v30 : Ref sig .tc := ⟨.hbm, 46, rfl⟩
abbrev main_v31 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩

abbrev nD : Nat := 1
abbrev τ : Topo := Topo.v7x

variable {F : FTy → Type} [FloatOps F]

class Facts₀ : Prop where
  bcast_S800000_S800000x1_0 : S800000.BroadcastsInDim S800000x1 (![0] : Fin 1 → Fin S800000x1.rank)
  bcast_S_S800000 : S_.BroadcastsInDim S800000 (![] : Fin 0 → Fin S800000.rank)
  bcast_S800000x1_S800000x128_0_1 : S800000x1.BroadcastsInDim S800000x128 (![0, 1] : Fin 2 → Fin S800000x128.rank)
  bcast_S_S50000x128 : S_.BroadcastsInDim S50000x128 (![] : Fin 0 → Fin S50000x128.rank)
  bcast_S128_S1x128_1 : S128.BroadcastsInDim S1x128 (![1] : Fin 1 → Fin S1x128.rank)
  bcast_S1x128_S50000x128_0_1 : S1x128.BroadcastsInDim S50000x128 (![0, 1] : Fin 2 → Fin S50000x128.rank)
  bcast_S800000x1_S800000x40_0_1 : S800000x1.BroadcastsInDim S800000x40 (![0, 1] : Fin 2 → Fin S800000x40.rank)
  bcast_S_S50000x40 : S_.BroadcastsInDim S50000x40 (![] : Fin 0 → Fin S50000x40.rank)
  bcast_S40_S1x40_1 : S40.BroadcastsInDim S1x40 (![1] : Fin 1 → Fin S1x40.rank)
  bcast_S1x40_S50000x40_0_1 : S1x40.BroadcastsInDim S50000x40 (![0, 1] : Fin 2 → Fin S50000x40.rank)
  dot_S50000x512_S512x128_S50000x128_1_0_0_1_n_n_wf : DotDims.WF S50000x512 S512x128 S50000x128 [1] [0] [0] [1] [] []
  gather_S50000x128_S800000x1_S800000x128_1_0_n_n_0_1_1128_wf : GatherDims.WF S50000x128 S800000x1 S800000x128 [1] [0] [] [0] [] 1 ![1, 128]
  scatter_S50000x128_S800000x1_S800000x128_1_0_0_1_wf : ScatterDims.WF S50000x128 S800000x1 S800000x128 [1] [0] [0] 1
  dot_S50000x128_S128x40_S50000x40_1_0_0_1_n_n_wf : DotDims.WF S50000x128 S128x40 S50000x40 [1] [0] [0] [1] [] []
  gather_S50000x40_S800000x1_S800000x40_1_0_n_n_0_1_140_wf : GatherDims.WF S50000x40 S800000x1 S800000x40 [1] [0] [] [0] [] 1 ![1, 40]
  scatter_S50000x40_S800000x1_S800000x40_1_0_0_1_wf : ScatterDims.WF S50000x40 S800000x1 S800000x40 [1] [0] [0] 1

variable [Facts₀]

def dot_S50000x512_S512x128_S50000x128_1_0_0_1_n_n : DotDims S50000x512 S512x128 S50000x128 where
  lhsContracting := [1]
  rhsContracting := [0]
  lhsNonContracting := [0]
  rhsNonContracting := [1]
  lhsBatch := []
  rhsBatch := []
  wf := dot_S50000x512_S512x128_S50000x128_1_0_0_1_n_n_wf
def gather_S50000x128_S800000x1_S800000x128_1_0_n_n_0_1_1128 : GatherDims S50000x128 S800000x1 S800000x128 where
  offsetDims := [1]
  collapsedSliceDims := [0]
  operandBatchingDims := []
  startIndicesBatchingDims := []
  startIndexMap := [0]
  indexVectorDim := 1
  sliceSizes := ![1, 128]
  wf := gather_S50000x128_S800000x1_S800000x128_1_0_n_n_0_1_1128_wf
def scatter_S50000x128_S800000x1_S800000x128_1_0_0_1 : ScatterDims S50000x128 S800000x1 S800000x128 where
  updateWindowDims := [1]
  insertedWindowDims := [0]
  scatterDimsToOperandDims := [0]
  indexVectorDim := 1
  wf := scatter_S50000x128_S800000x1_S800000x128_1_0_0_1_wf
def dot_S50000x128_S128x40_S50000x40_1_0_0_1_n_n : DotDims S50000x128 S128x40 S50000x40 where
  lhsContracting := [1]
  rhsContracting := [0]
  lhsNonContracting := [0]
  rhsNonContracting := [1]
  lhsBatch := []
  rhsBatch := []
  wf := dot_S50000x128_S128x40_S50000x40_1_0_0_1_n_n_wf
def gather_S50000x40_S800000x1_S800000x40_1_0_n_n_0_1_140 : GatherDims S50000x40 S800000x1 S800000x40 where
  offsetDims := [1]
  collapsedSliceDims := [0]
  operandBatchingDims := []
  startIndicesBatchingDims := []
  startIndexMap := [0]
  indexVectorDim := 1
  sliceSizes := ![1, 40]
  wf := gather_S50000x40_S800000x1_S800000x40_1_0_n_n_0_1_140_wf
def scatter_S50000x40_S800000x1_S800000x40_1_0_0_1 : ScatterDims S50000x40 S800000x1 S800000x40 where
  updateWindowDims := [1]
  insertedWindowDims := [0]
  scatterDimsToOperandDims := [0]
  indexVectorDim := 1
  wf := scatter_S50000x40_S800000x1_S800000x40_1_0_0_1_wf

class Facts : Prop extends Facts₀ where

variable [Facts]
-- ==== Proof.Spec.lean ====
/-
  The three array functions the regions of this two-layer graph convolution compute, each stated once over
  whole arrays and literal shapes, for extended reals:

  * `mmA x w` : the [50000, 512] × [512, 128] product, entry (r, j) the sum over k of x(r, k) · w(k, j);
  * `mmB h w` : the [50000, 128] × [128, 40] product, the same with 128 terms;
  * `biasRelu s b` : entry (r, j) the larger of s(r, j) + b(0, j) and zero, b a [1, 128] row.

  The row-blocked kernels compute exactly these row by row: a block of 2000 rows of a product depends only on
  the same 2000 rows of the left factor and on the whole right factor, and the bias row is the same for every
  block. The index builders below name the operand entries read for an output entry.
-/
import Idealize.ShloMosaic.PureOps.Ideal
import Idealize.ShloMosaic.PureOps.Ideal.Laws
import Idealize.ShloMosaic.Lib.ValueIdx

noncomputable section

namespace Cert.Spec

open Idealize.ShloMosaic

abbrev SN512 : Shape := ⟨2, ![50000, 512]⟩
abbrev SN128 : Shape := ⟨2, ![50000, 128]⟩
abbrev SN40 : Shape := ⟨2, ![50000, 40]⟩
abbrev SW1 : Shape := ⟨2, ![512, 128]⟩
abbrev SW2 : Shape := ⟨2, ![128, 40]⟩
abbrev SB1 : Shape := ⟨2, ![1, 128]⟩

/-- Entry (row of `i`, `k`) of the left factor of the first product. -/
abbrev lA (i : SN128.Idx) (k : Fin 512) : SN512.Idx := fun a => match a with
  | ⟨0, _⟩ => ⟨(i 0).val, (i 0).isLt⟩
  | ⟨1, _⟩ => ⟨k.val, k.isLt⟩
/-- Entry (`k`, column of `i`) of the right factor of the first product. -/
abbrev rA (i : SN128.Idx) (k : Fin 512) : SW1.Idx := fun a => match a with
  | ⟨0, _⟩ => ⟨k.val, k.isLt⟩
  | ⟨1, _⟩ => ⟨(i 1).val, (i 1).isLt⟩
/-- Entry (row of `i`, `k`) of the left factor of the second product. -/
abbrev lB (i : SN40.Idx) (k : Fin 128) : SN128.Idx := fun a => match a with
  | ⟨0, _⟩ => ⟨(i 0).val, (i 0).isLt⟩
  | ⟨1, _⟩ => ⟨k.val, k.isLt⟩
/-- Entry (`k`, column of `i`) of the right factor of the second product. -/
abbrev rB (i : SN40.Idx) (k : Fin 128) : SW2.Idx := fun a => match a with
  | ⟨0, _⟩ => ⟨k.val, k.isLt⟩
  | ⟨1, _⟩ => ⟨(i 1).val, (i 1).isLt⟩
/-- The bias row's entry under column of `i`. -/
abbrev bI (i : SN128.Idx) : SB1.Idx := fun a => match a with
  | ⟨0, _⟩ => ⟨0, Nat.one_pos⟩
  | ⟨1, _⟩ => ⟨(i 1).val, (i 1).isLt⟩

/-- The first layer's dense product. -/
def mmA (x : FVec Ideal SN512 .f32) (w : FVec Ideal SW1 .f32) : FVec Ideal SN128 .f32 :=
  fun i => ∑ k : Fin 512, x (lA i k) * w (rA i k)

/-- The second layer's dense product. -/
def mmB (h : FVec Ideal SN128 .f32) (w : FVec Ideal SW2 .f32) : FVec Ideal SN40 .f32 :=
  fun i => ∑ k : Fin 128, h (lB i k) * w (rB i k)

/-- Bias row added to every row, then the positive part. -/
def biasRelu (s : FVec Ideal SN128 .f32) (b : FVec Ideal SB1 .f32) : FVec Ideal SN128 .f32 :=
  fun i => max (s i + b (bI i)) (Ideal.ofBits .f32 0x00000000#32)

end Cert.Spec

end
-- ==== Proof.Region0.lean ====
/-
  Region 0: the first dense product, 2000 rows at a time.

  At grid point t the body loads rows 2000·t … 2000·t + 1999 of the left factor (all 512 columns) and the whole
  right factor, multiplies them into a zero accumulator, and stores the 2000 × 128 result as block t of the
  output. Over the extended reals the narrowing of both factors is the identity and the accumulated product
  is the plain sum over the 512 contracted positions, so entry (p, q) of what point t writes is
  Σ_k x(2000·t + p, k) · w(k, q): entry (2000·t + p, q) of `mmA`. The 25 blocks tile the 50000 rows, so the
  output array after the region is `mmA` of the two input arrays as the region found them.
-/
import proofs.«140864_j83099027243170_1_alg».proof.Proof.Gen.KernelIdeal.Frame
import proofs.«140864_j83099027243170_1_alg».proof.Proof.Spec
import Idealize.ShloMosaic.Lib.Pipeline.Value
import Idealize.ShloMosaic.Lib.ValueIdx
import Idealize.ShloMosaic.PureOps.Ideal.Laws

noncomputable section

namespace Cert.KernelIdeal.Layer1

open Cert.KernelIdeal Cert.KernelIdeal.Gen Idealize.ShloMosaic Idealize.ShloMosaic.TcCoe Idealize.SL.Sem
open Idealize.ShloMosaic.Pipeline (Dat)
open Cert.Spec

variable (V : (c : Dev nD) → (b : Ref sig .tc) → Buf (Elt Ideal) ((c : Thread nD τ).loc b))

theorem hz : (![0, 0] : Fin 2 → Nat) = fun _ => 0 := funext fun a => by fin_cases a <;> rfl

/-- The left factor as the region finds it. -/
abbrev xarr (c : Dev nD) : FVec Ideal SN512 .f32 := V c main_arg0
/-- The right factor as the region finds it. -/
abbrev warr (c : Dev nD) : FVec Ideal SW1 .f32 := V c main_arg4

/-! ## The block product at an entry -/

theorem lhs_0 (i : S2000x128.Idx) (q : dot_S2000x512_S512x128_S2000x128_1_0_0_1_n_n.contr.Idx) :
    (dot_S2000x512_S512x128_S2000x128_1_0_0_1_n_n.lhsIdx i q 0).val = (i 0).val := by
  unfold DotDims.lhsIdx
  rw [dif_neg (show ¬(0 : Fin S2000x512.rank) ∈ dot_S2000x512_S512x128_S2000x128_1_0_0_1_n_n.lhsBatch by decide), dif_pos (show (0 : Fin S2000x512.rank) ∈ dot_S2000x512_S512x128_S2000x128_1_0_0_1_n_n.lhsNonContracting by decide)]
  rfl
theorem lhs_1 (i : S2000x128.Idx) (q : dot_S2000x512_S512x128_S2000x128_1_0_0_1_n_n.contr.Idx) :
    (dot_S2000x512_S512x128_S2000x128_1_0_0_1_n_n.lhsIdx i q 1).val = (q ⟨0, by decide⟩).val :=
  dot_S2000x512_S512x128_S2000x128_1_0_0_1_n_n.lhsIdx_val_of_single rfl i q
theorem rhs_0 (i : S2000x128.Idx) (q : dot_S2000x512_S512x128_S2000x128_1_0_0_1_n_n.contr.Idx) :
    (dot_S2000x512_S512x128_S2000x128_1_0_0_1_n_n.rhsIdx i q 0).val = (q ⟨0, by decide⟩).val :=
  dot_S2000x512_S512x128_S2000x128_1_0_0_1_n_n.rhsIdx_val_of_single rfl i q
theorem rhs_1 (i : S2000x128.Idx) (q : dot_S2000x512_S512x128_S2000x128_1_0_0_1_n_n.contr.Idx) :
    (dot_S2000x512_S512x128_S2000x128_1_0_0_1_n_n.rhsIdx i q 1).val = (i 1).val := by
  unfold DotDims.rhsIdx
  rw [dif_neg (show ¬(1 : Fin S512x128.rank) ∈ dot_S2000x512_S512x128_S2000x128_1_0_0_1_n_n.rhsBatch by decide), dif_pos (show (1 : Fin S512x128.rank) ∈ dot_S2000x512_S512x128_S2000x128_1_0_0_1_n_n.rhsNonContracting by decide)]
  rfl

/-- Row of `j`, column `k` of the block of the left factor. -/
abbrev lblk (j : S2000x128.Idx) (k : Fin 512) : S2000x512.Idx := fun a => match a with
  | ⟨0, _⟩ => ⟨(j 0).val, (j 0).isLt⟩
  | ⟨1, _⟩ => ⟨k.val, k.isLt⟩
/-- Row `k`, column of `j` of the right factor. -/
abbrev rblk (j : S2000x128.Idx) (k : Fin 512) : S512x128.Idx := fun a => match a with
  | ⟨0, _⟩ => ⟨k.val, k.isLt⟩
  | ⟨1, _⟩ => ⟨(j 1).val, (j 1).isLt⟩

/-- The stored value at entry `j` of the block: the sum over the 512 contracted positions. -/
theorem pay_apply (x0 : Vec Ideal S2000x512 .f32) (x1 : Vec Ideal S512x128 .f32) (j : S2000x128.Idx) :
    k0_pay1 x0 x1 j = ∑ k : Fin 512, x0 (lblk j k) * x1 (rblk j k) := by
  unfold k0_pay1
  simp only [matmul]
  rw [Ideal.matmul_constant_zero_apply, ← Equiv.sum_comp (ValueIdx.contrEquiv1 dot_S2000x512_S512x128_S2000x128_1_0_0_1_n_n 512 rfl rfl).symm]
  refine Finset.sum_congr rfl fun k _ => ?_
  have hk := ValueIdx.contrEquiv1_symm_val dot_S2000x512_S512x128_S2000x128_1_0_0_1_n_n 512 rfl rfl k
  have el : dot_S2000x512_S512x128_S2000x128_1_0_0_1_n_n.lhsIdx j ((ValueIdx.contrEquiv1 dot_S2000x512_S512x128_S2000x128_1_0_0_1_n_n 512 rfl rfl).symm k) = lblk j k := funext fun a => Fin.ext (by
    match a with
    | ⟨0, _⟩ => exact lhs_0 _ _
    | ⟨1, _⟩ => exact (lhs_1 _ _).trans hk)
  have er : dot_S2000x512_S512x128_S2000x128_1_0_0_1_n_n.rhsIdx j ((ValueIdx.contrEquiv1 dot_S2000x512_S512x128_S2000x128_1_0_0_1_n_n 512 rfl rfl).symm k) = rblk j k := funext fun a => Fin.ext (by
    match a with
    | ⟨0, _⟩ => exact (rhs_0 _ _).trans hk
    | ⟨1, _⟩ => exact rhs_1 _ _)
  rw [el, er]
  rfl

/-! ## From blocks to the array -/

/-- The index maps over the 25 grid points: the left factor's block moves with the output's along the rows,
    every other block index is zero, and the output's row-block index stays below 25. -/
theorem idx_facts : ∀ t : Fin cfg0.N, win0_0.index t (0 : Fin 2) = win0_2.index t (0 : Fin 2)
    ∧ win0_0.index t (1 : Fin 2) = 0
    ∧ win0_1.index t (0 : Fin 2) = 0
    ∧ win0_1.index t (1 : Fin 2) = 0
    ∧ win0_2.index t (1 : Fin 2) = 0
    ∧ win0_2.index t (0 : Fin 2) ≤ 24 :=
  (by decide +kernel : ∀ t : Fin grid0.N, _)

/-- Every one of the 25 row blocks is some point's. -/
theorem idx_onto : ∀ q : Fin 25, ∃ t : Fin cfg0.N, win0_2.index t (0 : Fin 2) = q.val ∧ win0_2.index t (1 : Fin 2) = 0 :=
  (by decide +kernel : ∀ q : Fin 25, ∃ t : Fin grid0.N, win0_2.index t (0 : Fin 2) = q.val ∧ win0_2.index t (1 : Fin 2) = 0)

/-- What point `t` writes back is block `t` of the product of the arrays as the region found them. -/
theorem flushed_eq (c : Dev nD) (t : Fin cfg0.N) :
    (dat0 V c).flushed 2 t = ((cfg0.win 2).blk t).view.read (Elt Ideal) (mmA (xarr V c) (warr V c)) := by
  show (cfg0.win 2).cut (grid0.coords t) ((dat0 V c).after 2 t) = _
  rw [after0_2]
  unfold out0_2
  rw [View.canon_unit_zero hz]
  simp only [View.ld_unit_zero (S := S2000x512) hz, View.ld_unit_zero (S := S512x128) hz]
  obtain ⟨e0, e1, e2, e3, e4, e5⟩ := idx_facts t
  funext j
  show k0_pay1 (iblk0 V c 0 t) (iblk0 V c 1 t) j = mmA (xarr V c) (warr V c) (((cfg0.win 2).blk t).view.emb j)
  refine (pay_apply _ _ j).trans ?_
  show _ = ∑ k : Fin 512, xarr V c (lA (((cfg0.win 2).blk t).view.emb j) k) * warr V c (rA (((cfg0.win 2).blk t).view.emb j) k)
  refine Finset.sum_congr rfl fun k _ => ?_
  have h0 : (iblk0 V c 0 t : Vec Ideal S2000x512 .f32) (lblk j k) = xarr V c (lA (((cfg0.win 2).blk t).view.emb j) k) := by
    show xarr V c (((cfg0.win 0).blk t).view.emb (lblk j k)) = _
    refine congrArg (xarr V c) (funext fun a => Fin.ext ?_)
    match a with
    | ⟨0, _⟩ => show win0_0.index t (0 : Fin 2) * 2000 + 1 * (j 0).val = win0_2.index t (0 : Fin 2) * 2000 + 1 * (j 0).val; omega
    | ⟨1, _⟩ => show win0_0.index t (1 : Fin 2) * 512 + 1 * k.val = k.val; omega
  have h1 : (iblk0 V c 1 t : Vec Ideal S512x128 .f32) (rblk j k) = warr V c (rA (((cfg0.win 2).blk t).view.emb j) k) := by
    show warr V c (((cfg0.win 1).blk t).view.emb (rblk j k)) = _
    refine congrArg (warr V c) (funext fun a => Fin.ext ?_)
    match a with
    | ⟨0, _⟩ => show win0_1.index t (0 : Fin 2) * 512 + 1 * k.val = k.val; omega
    | ⟨1, _⟩ => show win0_1.index t (1 : Fin 2) * 128 + 1 * (j 1).val = win0_2.index t (1 : Fin 2) * 128 + 1 * (j 1).val; omega
  exact congrArg₂ (fun a b : EReal => a * b) h0 h1

/-- An index of the array is in point `t`'s block iff each coordinate is in the block's range on its axis. -/
theorem mem_blk (t : Fin cfg0.N) (i : S50000x128.Idx) :
    i ∈ ((cfg0.win 2).blk t).view.set ↔ ∀ a : Fin 2, win0_2.index t a * S2000x128.size a ≤ (i a).val ∧ (i a).val < win0_2.index t a * S2000x128.size a + S2000x128.size a := by
  show i ∈ ((View.whole main_v0).slice (win0_2.rect t)).set ↔ _
  rw [View.set_slice_whole, Rect.mem_set_unit]
  exact Iff.rfl

/-- The blocks tile the array: row r lies in block r / 2000. -/
theorem cover (i : S50000x128.Idx) :
    ∃ t : Fin cfg0.N, (cfg0.win 2).flush t = true ∧ i ∈ ((cfg0.win 2).blk t).view.set := by
  have hi0 : (i 0).val < 50000 := (i 0).isLt
  have hi1 : (i 1).val < 128 := (i 1).isLt
  obtain ⟨t, q0, q1⟩ := idx_onto ⟨(i 0).val / 2000, by omega⟩
  refine ⟨t, flush0_2 t, ?_⟩
  rw [mem_blk]
  intro a
  match a with
  | ⟨0, _⟩ => show win0_2.index t (0 : Fin 2) * 2000 ≤ (i 0).val ∧ (i 0).val < win0_2.index t (0 : Fin 2) * 2000 + 2000; rw [q0]; show (i 0).val / 2000 * 2000 ≤ (i 0).val ∧ (i 0).val < (i 0).val / 2000 * 2000 + 2000; omega
  | ⟨1, _⟩ => show win0_2.index t (1 : Fin 2) * 128 ≤ (i 1).val ∧ (i 1).val < win0_2.index t (1 : Fin 2) * 128 + 128; omega

/-- The output array after the region: the product of the two input arrays as the region found them. -/
theorem final (c : Dev nD) : (dat0 V c).arrAt 2 cfg0.N = mmA (xarr V c) (warr V c) :=
  (dat0 V c).arrAt_eq_of_cover 2 _ (fun t _ => flushed_eq V c t) cover

end Cert.KernelIdeal.Layer1

end
-- ==== Proof.Region1.lean ====
/-
  Region 1: the bias row added to every row of the aggregated features, then the positive part, 2000 rows
  at a time.

  At grid point t the body loads rows 2000·t … 2000·t + 1999 of the aggregated array and the one bias row,
  spreads the row down the block, adds, and takes the larger of the sum and zero. Every step is entry by entry
  (a reshape of a block to its own shape changes nothing), so entry (p, q) of what point t writes is
  max(s(2000·t + p, q) + b(0, q), 0): entry (2000·t + p, q) of `biasRelu`. The 25 blocks tile the 50000 rows, so
  the output array after the region is `biasRelu` of the two input arrays as the region found them.
-/
import proofs.«140864_j83099027243170_1_alg».proof.Proof.Gen.KernelIdeal.Frame
import proofs.«140864_j83099027243170_1_alg».proof.Proof.Spec
import Idealize.ShloMosaic.Lib.Pipeline.Value
import Idealize.ShloMosaic.Lib.ValueIdx
import Idealize.ShloMosaic.PureOps.Ideal.Laws

noncomputable section

namespace Cert.KernelIdeal.Hidden

open Cert.KernelIdeal Cert.KernelIdeal.Gen Idealize.ShloMosaic Idealize.ShloMosaic.TcCoe Idealize.SL.Sem
open Idealize.ShloMosaic.Pipeline (Dat)
open Cert.Spec

variable (V : (c : Dev nD) → (b : Ref sig .tc) → Buf (Elt Ideal) ((c : Thread nD τ).loc b))

theorem hz : (![0, 0] : Fin 2 → Nat) = fun _ => 0 := funext fun a => by fin_cases a <;> rfl

/-- The aggregated features as the region finds them. -/
abbrev sarr (c : Dev nD) : FVec Ideal SN128 .f32 := V c main_v13
/-- The bias row as the region finds it. -/
abbrev barr (c : Dev nD) : FVec Ideal SB1 .f32 := V c main_v14

/-! ## The block's value at an entry -/

/-- The bias row's entry under column of `j`. -/
abbrev bblk (j : S2000x128.Idx) : S1x128.Idx := fun a => match a with
  | ⟨0, _⟩ => ⟨0, Nat.one_pos⟩
  | ⟨1, _⟩ => ⟨(j 1).val, (j 1).isLt⟩

/-- The stored value at entry `j` of the block. -/
theorem pay_apply (x0 : Vec Ideal S2000x128 .f32) (x1 : Vec Ideal S1x128 .f32) (j : S2000x128.Idx) :
    k1_pay1 x0 x1 j = max (x0 j + x1 (bblk j)) (Ideal.ofBits .f32 0x00000000#32) := by
  unfold k1_pay1
  simp only [shapeCast_self]
  rw [ValueIdx.maximumf_apply, ValueIdx.addf_apply, broadcastTo_apply x1 broadcasts_S1x128_S2000x128 j (bblk j) (fun a => match a with
    | ⟨0, _⟩ => by show 0 = if (1 : Nat) = 1 then 0 else _; rw [if_pos rfl]
    | ⟨1, _⟩ => by show (j 1).val = if (128 : Nat) = 1 then 0 else _; rw [if_neg (by decide)]; rfl)]
  rfl

/-! ## From blocks to the array -/

/-- The index maps over the 25 grid points: the input's block moves with the output's along the rows, every
    other block index is zero, and the output's row-block index stays below 25. -/
theorem idx_facts : ∀ t : Fin cfg1.N, win1_0.index t (0 : Fin 2) = win1_2.index t (0 : Fin 2)
    ∧ win1_0.index t (1 : Fin 2) = 0
    ∧ win1_1.index t (0 : Fin 2) = 0
    ∧ win1_1.index t (1 : Fin 2) = 0
    ∧ win1_2.index t (1 : Fin 2) = 0
    ∧ win1_2.index t (0 : Fin 2) ≤ 24 :=
  (by decide +kernel : ∀ t : Fin grid1.N, _)

/-- Every one of the 25 row blocks is some point's. -/
theorem idx_onto : ∀ q : Fin 25, ∃ t : Fin cfg1.N, win1_2.index t (0 : Fin 2) = q.val ∧ win1_2.index t (1 : Fin 2) = 0 :=
  (by decide +kernel : ∀ q : Fin 25, ∃ t : Fin grid1.N, win1_2.index t (0 : Fin 2) = q.val ∧ win1_2.index t (1 : Fin 2) = 0)

/-- What point `t` writes back is block `t` of `biasRelu` of the arrays as the region found them. -/
theorem flushed_eq (c : Dev nD) (t : Fin cfg1.N) :
    (dat1 V c).flushed 2 t = ((cfg1.win 2).blk t).view.read (Elt Ideal) (biasRelu (sarr V c) (barr V c)) := by
  show (cfg1.win 2).cut (grid1.coords t) ((dat1 V c).after 2 t) = _
  rw [after1_2]
  unfold out1_2
  rw [View.canon_unit_zero hz]
  simp only [View.ld_unit_zero (S := S2000x128) hz, View.ld_unit_zero (S := S1x128) hz]
  obtain ⟨e0, e1, e2, e3, e4, e5⟩ := idx_facts t
  funext j
  show k1_pay1 (iblk1 V c 0 t) (iblk1 V c 1 t) j = biasRelu (sarr V c) (barr V c) (((cfg1.win 2).blk t).view.emb j)
  refine (pay_apply _ _ j).trans ?_
  show _ = max (sarr V c (((cfg1.win 2).blk t).view.emb j) + barr V c (bI (((cfg1.win 2).blk t).view.emb j))) (Ideal.ofBits .f32 0x00000000#32)
  have h0 : (iblk1 V c 0 t : Vec Ideal S2000x128 .f32) j = sarr V c (((cfg1.win 2).blk t).view.emb j) := by
    show sarr V c (((cfg1.win 0).blk t).view.emb j) = _
    refine congrArg (sarr V c) (funext fun a => Fin.ext ?_)
    match a with
    | ⟨0, _⟩ => show win1_0.index t (0 : Fin 2) * 2000 + 1 * (j 0).val = win1_2.index t (0 : Fin 2) * 2000 + 1 * (j 0).val; omega
    | ⟨1, _⟩ => show win1_0.index t (1 : Fin 2) * 128 + 1 * (j 1).val = win1_2.index t (1 : Fin 2) * 128 + 1 * (j 1).val; omega
  have h1 : (iblk1 V c 1 t : Vec Ideal S1x128 .f32) (bblk j) = barr V c (bI (((cfg1.win 2).blk t).view.emb j)) := by
    show barr V c (((cfg1.win 1).blk t).view.emb (bblk j)) = _
    refine congrArg (barr V c) (funext fun a => Fin.ext ?_)
    match a with
    | ⟨0, _⟩ => show win1_1.index t (0 : Fin 2) * 1 + 1 * 0 = 0; omega
    | ⟨1, _⟩ => show win1_1.index t (1 : Fin 2) * 128 + 1 * (j 1).val = win1_2.index t (1 : Fin 2) * 128 + 1 * (j 1).val; omega
  exact congrArg₂ (fun a b : EReal => max (a + b) (Ideal.ofBits .f32 0x00000000#32)) h0 h1

/-- An index of the array is in point `t`'s block iff each coordinate is in the block's range on its axis. -/
theorem mem_blk (t : Fin cfg1.N) (i : S50000x128.Idx) :
    i ∈ ((cfg1.win 2).blk t).view.set ↔ ∀ a : Fin 2, win1_2.index t a * S2000x128.size a ≤ (i a).val ∧ (i a).val < win1_2.index t a * S2000x128.size a + S2000x128.size a := by
  show i ∈ ((View.whole main_v15).slice (win1_2.rect t)).set ↔ _
  rw [View.set_slice_whole, Rect.mem_set_unit]
  exact Iff.rfl

/-- The blocks tile the array: row r lies in block r / 2000. -/
theorem cover (i : S50000x128.Idx) :
    ∃ t : Fin cfg1.N, (cfg1.win 2).flush t = true ∧ i ∈ ((cfg1.win 2).blk t).view.set := by
  have hi0 : (i 0).val < 50000 := (i 0).isLt
  have hi1 : (i 1).val < 128 := (i 1).isLt
  obtain ⟨t, q0, q1⟩ := idx_onto ⟨(i 0).val / 2000, by omega⟩
  refine ⟨t, flush1_2 t, ?_⟩
  rw [mem_blk]
  intro a
  match a with
  | ⟨0, _⟩ => show win1_2.index t (0 : Fin 2) * 2000 ≤ (i 0).val ∧ (i 0).val < win1_2.index t (0 : Fin 2) * 2000 + 2000; rw [q0]; show (i 0).val / 2000 * 2000 ≤ (i 0).val ∧ (i 0).val < (i 0).val / 2000 * 2000 + 2000; omega
  | ⟨1, _⟩ => show win1_2.index t (1 : Fin 2) * 128 ≤ (i 1).val ∧ (i 1).val < win1_2.index t (1 : Fin 2) * 128 + 128; omega

/-- The output array after the region: `biasRelu` of the two input arrays as the region found them. -/
theorem final (c : Dev nD) : (dat1 V c).arrAt 2 cfg1.N = biasRelu (sarr V c) (barr V c) :=
  (dat1 V c).arrAt_eq_of_cover 2 _ (fun t _ => flushed_eq V c t) cover

end Cert.KernelIdeal.Hidden

end
-- ==== Proof.Region2.lean ====
/-
  Region 2: the second dense product, 2000 rows at a time.

  At grid point t the body loads rows 2000·t … 2000·t + 1999 of the left factor (all 128 columns) and the whole
  right factor, multiplies them into a zero accumulator, and stores the 2000 × 40 result as block t of the
  output. Over the extended reals the narrowing of both factors is the identity, a reshape of a block to its own shape changes nothing, and the accumulated product
  is the plain sum over the 128 contracted positions, so entry (p, q) of what point t writes is
  Σ_k x(2000·t + p, k) · w(k, q): entry (2000·t + p, q) of `mmB`. The 25 blocks tile the 50000 rows, so the
  output array after the region is `mmB` of the two input arrays as the region found them.
-/
import proofs.«140864_j83099027243170_1_alg».proof.Proof.Gen.KernelIdeal.Frame
import proofs.«140864_j83099027243170_1_alg».proof.Proof.Spec
import Idealize.ShloMosaic.Lib.Pipeline.Value
import Idealize.ShloMosaic.Lib.ValueIdx
import Idealize.ShloMosaic.PureOps.Ideal.Laws

noncomputable section

namespace Cert.KernelIdeal.Layer2

open Cert.KernelIdeal Cert.KernelIdeal.Gen Idealize.ShloMosaic Idealize.ShloMosaic.TcCoe Idealize.SL.Sem
open Idealize.ShloMosaic.Pipeline (Dat)
open Cert.Spec

variable (V : (c : Dev nD) → (b : Ref sig .tc) → Buf (Elt Ideal) ((c : Thread nD τ).loc b))

theorem hz : (![0, 0] : Fin 2 → Nat) = fun _ => 0 := funext fun a => by fin_cases a <;> rfl

/-- The left factor as the region finds it. -/
abbrev xarr (c : Dev nD) : FVec Ideal SN128 .f32 := V c main_v15
/-- The right factor as the region finds it. -/
abbrev warr (c : Dev nD) : FVec Ideal SW2 .f32 := V c main_arg6

/-! ## The block product at an entry -/

theorem lhs_0 (i : S2000x40.Idx) (q : dot_S2000x128_S128x40_S2000x40_1_0_0_1_n_n.contr.Idx) :
    (dot_S2000x128_S128x40_S2000x40_1_0_0_1_n_n.lhsIdx i q 0).val = (i 0).val := by
  unfold DotDims.lhsIdx
  rw [dif_neg (show ¬(0 : Fin S2000x128.rank) ∈ dot_S2000x128_S128x40_S2000x40_1_0_0_1_n_n.lhsBatch by decide), dif_pos (show (0 : Fin S2000x128.rank) ∈ dot_S2000x128_S128x40_S2000x40_1_0_0_1_n_n.lhsNonContracting by decide)]
  rfl
theorem lhs_1 (i : S2000x40.Idx) (q : dot_S2000x128_S128x40_S2000x40_1_0_0_1_n_n.contr.Idx) :
    (dot_S2000x128_S128x40_S2000x40_1_0_0_1_n_n.lhsIdx i q 1).val = (q ⟨0, by decide⟩).val :=
  dot_S2000x128_S128x40_S2000x40_1_0_0_1_n_n.lhsIdx_val_of_single rfl i q
theorem rhs_0 (i : S2000x40.Idx) (q : dot_S2000x128_S128x40_S2000x40_1_0_0_1_n_n.contr.Idx) :
    (dot_S2000x128_S128x40_S2000x40_1_0_0_1_n_n.rhsIdx i q 0).val = (q ⟨0, by decide⟩).val :=
  dot_S2000x128_S128x40_S2000x40_1_0_0_1_n_n.rhsIdx_val_of_single rfl i q
theorem rhs_1 (i : S2000x40.Idx) (q : dot_S2000x128_S128x40_S2000x40_1_0_0_1_n_n.contr.Idx) :
    (dot_S2000x128_S128x40_S2000x40_1_0_0_1_n_n.rhsIdx i q 1).val = (i 1).val := by
  unfold DotDims.rhsIdx
  rw [dif_neg (show ¬(1 : Fin S128x40.rank) ∈ dot_S2000x128_S128x40_S2000x40_1_0_0_1_n_n.rhsBatch by decide), dif_pos (show (1 : Fin S128x40.rank) ∈ dot_S2000x128_S128x40_S2000x40_1_0_0_1_n_n.rhsNonContracting by decide)]
  rfl

/-- Row of `j`, column `k` of the block of the left factor. -/
abbrev lblk (j : S2000x40.Idx) (k : Fin 128) : S2000x128.Idx := fun a => match a with
  | ⟨0, _⟩ => ⟨(j 0).val, (j 0).isLt⟩
  | ⟨1, _⟩ => ⟨k.val, k.isLt⟩
/-- Row `k`, column of `j` of the right factor. -/
abbrev rblk (j : S2000x40.Idx) (k : Fin 128) : S128x40.Idx := fun a => match a with
  | ⟨0, _⟩ => ⟨k.val, k.isLt⟩
  | ⟨1, _⟩ => ⟨(j 1).val, (j 1).isLt⟩

/-- The stored value at entry `j` of the block: the sum over the 128 contracted positions. -/
theorem pay_apply (x0 : Vec Ideal S2000x128 .f32) (x1 : Vec Ideal S128x40 .f32) (j : S2000x40.Idx) :
    k2_pay1 x0 x1 j = ∑ k : Fin 128, x0 (lblk j k) * x1 (rblk j k) := by
  unfold k2_pay1
  simp only [matmul, shapeCast_self]
  rw [Ideal.matmul_constant_zero_apply, ← Equiv.sum_comp (ValueIdx.contrEquiv1 dot_S2000x128_S128x40_S2000x40_1_0_0_1_n_n 128 rfl rfl).symm]
  refine Finset.sum_congr rfl fun k _ => ?_
  have hk := ValueIdx.contrEquiv1_symm_val dot_S2000x128_S128x40_S2000x40_1_0_0_1_n_n 128 rfl rfl k
  have el : dot_S2000x128_S128x40_S2000x40_1_0_0_1_n_n.lhsIdx j ((ValueIdx.contrEquiv1 dot_S2000x128_S128x40_S2000x40_1_0_0_1_n_n 128 rfl rfl).symm k) = lblk j k := funext fun a => Fin.ext (by
    match a with
    | ⟨0, _⟩ => exact lhs_0 _ _
    | ⟨1, _⟩ => exact (lhs_1 _ _).trans hk)
  have er : dot_S2000x128_S128x40_S2000x40_1_0_0_1_n_n.rhsIdx j ((ValueIdx.contrEquiv1 dot_S2000x128_S128x40_S2000x40_1_0_0_1_n_n 128 rfl rfl).symm k) = rblk j k := funext fun a => Fin.ext (by
    match a with
    | ⟨0, _⟩ => exact (rhs_0 _ _).trans hk
    | ⟨1, _⟩ => exact rhs_1 _ _)
  rw [el, er]
  rfl

/-! ## From blocks to the array -/

/-- The index maps over the 25 grid points: the left factor's block moves with the output's along the rows,
    every other block index is zero, and the output's row-block index stays below 25. -/
theorem idx_facts : ∀ t : Fin cfg2.N, win2_0.index t (0 : Fin 2) = win2_2.index t (0 : Fin 2)
    ∧ win2_0.index t (1 : Fin 2) = 0
    ∧ win2_1.index t (0 : Fin 2) = 0
    ∧ win2_1.index t (1 : Fin 2) = 0
    ∧ win2_2.index t (1 : Fin 2) = 0
    ∧ win2_2.index t (0 : Fin 2) ≤ 24 :=
  (by decide +kernel : ∀ t : Fin grid2.N, _)

/-- Every one of the 25 row blocks is some point's. -/
theorem idx_onto : ∀ q : Fin 25, ∃ t : Fin cfg2.N, win2_2.index t (0 : Fin 2) = q.val ∧ win2_2.index t (1 : Fin 2) = 0 :=
  (by decide +kernel : ∀ q : Fin 25, ∃ t : Fin grid2.N, win2_2.index t (0 : Fin 2) = q.val ∧ win2_2.index t (1 : Fin 2) = 0)

/-- What point `t` writes back is block `t` of the product of the arrays as the region found them. -/
theorem flushed_eq (c : Dev nD) (t : Fin cfg2.N) :
    (dat2 V c).flushed 2 t = ((cfg2.win 2).blk t).view.read (Elt Ideal) (mmB (xarr V c) (warr V c)) := by
  show (cfg2.win 2).cut (grid2.coords t) ((dat2 V c).after 2 t) = _
  rw [after2_2]
  unfold out2_2
  rw [View.canon_unit_zero hz]
  simp only [View.ld_unit_zero (S := S2000x128) hz, View.ld_unit_zero (S := S128x40) hz]
  obtain ⟨e0, e1, e2, e3, e4, e5⟩ := idx_facts t
  funext j
  show k2_pay1 (iblk2 V c 0 t) (iblk2 V c 1 t) j = mmB (xarr V c) (warr V c) (((cfg2.win 2).blk t).view.emb j)
  refine (pay_apply _ _ j).trans ?_
  show _ = ∑ k : Fin 128, xarr V c (lB (((cfg2.win 2).blk t).view.emb j) k) * warr V c (rB (((cfg2.win 2).blk t).view.emb j) k)
  refine Finset.sum_congr rfl fun k _ => ?_
  have h0 : (iblk2 V c 0 t : Vec Ideal S2000x128 .f32) (lblk j k) = xarr V c (lB (((cfg2.win 2).blk t).view.emb j) k) := by
    show xarr V c (((cfg2.win 0).blk t).view.emb (lblk j k)) = _
    refine congrArg (xarr V c) (funext fun a => Fin.ext ?_)
    match a with
    | ⟨0, _⟩ => show win2_0.index t (0 : Fin 2) * 2000 + 1 * (j 0).val = win2_2.index t (0 : Fin 2) * 2000 + 1 * (j 0).val; omega
    | ⟨1, _⟩ => show win2_0.index t (1 : Fin 2) * 128 + 1 * k.val = k.val; omega
  have h1 : (iblk2 V c 1 t : Vec Ideal S128x40 .f32) (rblk j k) = warr V c (rB (((cfg2.win 2).blk t).view.emb j) k) := by
    show warr V c (((cfg2.win 1).blk t).view.emb (rblk j k)) = _
    refine congrArg (warr V c) (funext fun a => Fin.ext ?_)
    match a with
    | ⟨0, _⟩ => show win2_1.index t (0 : Fin 2) * 128 + 1 * k.val = k.val; omega
    | ⟨1, _⟩ => show win2_1.index t (1 : Fin 2) * 40 + 1 * (j 1).val = win2_2.index t (1 : Fin 2) * 40 + 1 * (j 1).val; omega
  exact congrArg₂ (fun a b : EReal => a * b) h0 h1

/-- An index of the array is in point `t`'s block iff each coordinate is in the block's range on its axis. -/
theorem mem_blk (t : Fin cfg2.N) (i : S50000x40.Idx) :
    i ∈ ((cfg2.win 2).blk t).view.set ↔ ∀ a : Fin 2, win2_2.index t a * S2000x40.size a ≤ (i a).val ∧ (i a).val < win2_2.index t a * S2000x40.size a + S2000x40.size a := by
  show i ∈ ((View.whole main_v16).slice (win2_2.rect t)).set ↔ _
  rw [View.set_slice_whole, Rect.mem_set_unit]
  exact Iff.rfl

/-- The blocks tile the array: row r lies in block r / 2000. -/
theorem cover (i : S50000x40.Idx) :
    ∃ t : Fin cfg2.N, (cfg2.win 2).flush t = true ∧ i ∈ ((cfg2.win 2).blk t).view.set := by
  have hi0 : (i 0).val < 50000 := (i 0).isLt
  have hi1 : (i 1).val < 40 := (i 1).isLt
  obtain ⟨t, q0, q1⟩ := idx_onto ⟨(i 0).val / 2000, by omega⟩
  refine ⟨t, flush2_2 t, ?_⟩
  rw [mem_blk]
  intro a
  match a with
  | ⟨0, _⟩ => show win2_2.index t (0 : Fin 2) * 2000 ≤ (i 0).val ∧ (i 0).val < win2_2.index t (0 : Fin 2) * 2000 + 2000; rw [q0]; show (i 0).val / 2000 * 2000 ≤ (i 0).val ∧ (i 0).val < (i 0).val / 2000 * 2000 + 2000; omega
  | ⟨1, _⟩ => show win2_2.index t (1 : Fin 2) * 40 ≤ (i 1).val ∧ (i 1).val < win2_2.index t (1 : Fin 2) * 40 + 40; omega

/-- The output array after the region: the product of the two input arrays as the region found them. -/
theorem final (c : Dev nD) : (dat2 V c).arrAt 2 cfg2.N = mmB (xarr V c) (warr V c) :=
  (dat2 V c).arrAt_eq_of_cover 2 _ (fun t _ => flushed_eq V c t) cover

end Cert.KernelIdeal.Layer2

end
-- ==== Proof.KernelValue.lean ====
/-
  The result of the kernel program as one function of its eight arguments, over the extended reals.

  @main is: the first dense product (region 0); a stretch of host operations that wraps negative source indices
  by 50000, gathers the product's rows by source node, scales each by its edge weight and scatter-adds them by
  destination node into zeros; the bias-and-positive-part region (region 1); the second dense product (region 2);
  and a second stretch that aggregates its rows the same way and adds the output bias to every row.

  The buffer contents at the segment boundaries are the fold `W0 … W5` of the generated frame. Each region's
  output array is the whole-array function of the region's entry contents proved beside this module, each
  stretch's results are its operations applied in order, and no segment writes an argument, so reading the fold
  back from the result buffer gives the composition below.
-/
import proofs.«140864_j83099027243170_1_alg».proof.Proof.Region0
import proofs.«140864_j83099027243170_1_alg».proof.Proof.Region1
import proofs.«140864_j83099027243170_1_alg».proof.Proof.Region2
import Idealize.ShloMosaic.Lib.StableHlo.Run

set_option maxRecDepth 16384

noncomputable section

namespace Cert.KernelIdeal.Whole

open Cert.KernelIdeal Cert.KernelIdeal.Gen Idealize.ShloMosaic Idealize.ShloMosaic.TcCoe Idealize.SL.Sem
open Idealize.ShloMosaic.StableHlo
open Cert.Spec

/-! ## The host stretches' operations, named -/

/-- The source-node column: a negative index wrapped by the node count, as an [800000, 1] column. -/
abbrev srcCol (col : IVec S800000 32) : IVec S800000x1 32 :=
  broadcastInDim S800000x1 ![0] bcast_S800000_S800000x1_0
    (select (cmpi .slt col (broadcastInDim S800000 ![] bcast_S_S800000 (constantI S_ 32 0#32)))
      (addi col (broadcastInDim S800000 ![] bcast_S_S800000 (constantI S_ 32 50000#32))) col)

/-- Aggregation over the edges of a [50000, 128] array: rows gathered by source node, each scaled by its edge
    weight, scatter-added by destination node into zeros. -/
abbrev aggr128 (M : FVec Ideal S50000x128 .f32) (row col : IVec S800000 32)
    (ew : FVec Ideal S800000 .f32) : FVec Ideal S50000x128 .f32 :=
  Host.scatterAdd scatter_S50000x128_S800000x1_S800000x128_1_0_0_1
    (broadcastInDim S50000x128 ![] bcast_S_S50000x128 (constant S_ .f32 0x00000000#32))
    (broadcastInDim S800000x1 ![0] bcast_S800000_S800000x1_0 row)
    (mulf (Host.gather gather_S50000x128_S800000x1_S800000x128_1_0_n_n_0_1_1128 M (srcCol col))
      (broadcastInDim S800000x128 ![0, 1] bcast_S800000x1_S800000x128_0_1 (broadcastInDim S800000x1 ![0] bcast_S800000_S800000x1_0 ew)))

/-- The same over a [50000, 40] array. -/
abbrev aggr40 (M : FVec Ideal S50000x40 .f32) (row col : IVec S800000 32)
    (ew : FVec Ideal S800000 .f32) : FVec Ideal S50000x40 .f32 :=
  Host.scatterAdd scatter_S50000x40_S800000x1_S800000x40_1_0_0_1
    (broadcastInDim S50000x40 ![] bcast_S_S50000x40 (constant S_ .f32 0x00000000#32))
    (broadcastInDim S800000x1 ![0] bcast_S800000_S800000x1_0 row)
    (mulf (Host.gather gather_S50000x40_S800000x1_S800000x40_1_0_n_n_0_1_140 M (srcCol col))
      (broadcastInDim S800000x40 ![0, 1] bcast_S800000x1_S800000x40_0_1 (broadcastInDim S800000x1 ![0] bcast_S800000_S800000x1_0 ew)))

/-- The whole program's result as a function of the eight argument arrays. -/
abbrev result (x : FVec Ideal S50000x512 .f32) (row col : IVec S800000 32)
    (ew : FVec Ideal S800000 .f32) (w1 : FVec Ideal S512x128 .f32)
    (b1 : FVec Ideal S128 .f32) (w2 : FVec Ideal S128x40 .f32)
    (b2 : FVec Ideal S40 .f32) : FVec Ideal S50000x40 .f32 :=
  addf (aggr40 (mmB (biasRelu (aggr128 (mmA x w1) row col ew) (shapeCast S1x128 b1 shapeCasts_S128_S1x128)) w2) row col ew)
    (broadcastInDim S50000x40 ![0, 1] bcast_S1x40_S50000x40_0_1 (broadcastInDim S1x40 ![1] bcast_S40_S1x40_1 b2))

variable (m : (ℓ : Loc nD τ sig) → Buf (Elt Ideal) ℓ) (ρ : Dev nD → PrngReg)

/-! ## Region 0's exit -/

/-- The first product's array after region 0. -/
theorem W1_v0 (c : Dev nD) : W1 m ρ c (Proc.devRef .tc main_v0)
    = mmA (m ((c : Thread nD τ).loc main_arg0)) (m ((c : Thread nD τ).loc main_arg4)) :=
  (W1_arr m ρ c 2).trans (Layer1.final (V0 m ρ) c)

theorem W1_arg1 (c : Dev nD) : W1 m ρ c (Proc.devRef .tc main_arg1) = m ((c : Thread nD τ).loc main_arg1) := W1_of_ne m ρ c main_arg1 (by decide)
theorem W1_arg2 (c : Dev nD) : W1 m ρ c (Proc.devRef .tc main_arg2) = m ((c : Thread nD τ).loc main_arg2) := W1_of_ne m ρ c main_arg2 (by decide)
theorem W1_arg3 (c : Dev nD) : W1 m ρ c (Proc.devRef .tc main_arg3) = m ((c : Thread nD τ).loc main_arg3) := W1_of_ne m ρ c main_arg3 (by decide)
theorem W1_arg5 (c : Dev nD) : W1 m ρ c (Proc.devRef .tc main_arg5) = m ((c : Thread nD τ).loc main_arg5) := W1_of_ne m ρ c main_arg5 (by decide)
theorem W1_arg6 (c : Dev nD) : W1 m ρ c (Proc.devRef .tc main_arg6) = m ((c : Thread nD τ).loc main_arg6) := W1_of_ne m ρ c main_arg6 (by decide)
theorem W1_arg7 (c : Dev nD) : W1 m ρ c (Proc.devRef .tc main_arg7) = m ((c : Thread nD τ).loc main_arg7) := W1_of_ne m ρ c main_arg7 (by decide)

/-! ## After the first stretch (region 1's entry) -/

/-- The aggregated first layer. -/
theorem W2_v13 (c : Dev nD) : W2 m ρ c (Proc.devRef .tc main_v13)
    = aggr128 (mmA (m ((c : Thread nD τ).loc main_arg0)) (m ((c : Thread nD τ).loc main_arg4)))
        (m ((c : Thread nD τ).loc main_arg1)) (m ((c : Thread nD τ).loc main_arg2)) (m ((c : Thread nD τ).loc main_arg3)) := by
  dsimp only [W2, hostOps1]
  after_results
  rw [W1_v0, W1_arg1, W1_arg2, W1_arg3]

/-- The bias as a [1, 128] row. -/
theorem W2_v14 (c : Dev nD) : W2 m ρ c (Proc.devRef .tc main_v14)
    = shapeCast S1x128 (m ((c : Thread nD τ).loc main_arg5)) shapeCasts_S128_S1x128 := by
  dsimp only [W2, hostOps1]
  after_results
  rw [W1_arg5]
  rfl

theorem W2_arg1 (c : Dev nD) : W2 m ρ c (Proc.devRef .tc main_arg1) = m ((c : Thread nD τ).loc main_arg1) := by
  dsimp only [W2, hostOps1]; after_results; exact W1_arg1 m ρ c
theorem W2_arg2 (c : Dev nD) : W2 m ρ c (Proc.devRef .tc main_arg2) = m ((c : Thread nD τ).loc main_arg2) := by
  dsimp only [W2, hostOps1]; after_results; exact W1_arg2 m ρ c
theorem W2_arg3 (c : Dev nD) : W2 m ρ c (Proc.devRef .tc main_arg3) = m ((c : Thread nD τ).loc main_arg3) := by
  dsimp only [W2, hostOps1]; after_results; exact W1_arg3 m ρ c
theorem W2_arg6 (c : Dev nD) : W2 m ρ c (Proc.devRef .tc main_arg6) = m ((c : Thread nD τ).loc main_arg6) := by
  dsimp only [W2, hostOps1]; after_results; exact W1_arg6 m ρ c
theorem W2_arg7 (c : Dev nD) : W2 m ρ c (Proc.devRef .tc main_arg7) = m ((c : Thread nD τ).loc main_arg7) := by
  dsimp only [W2, hostOps1]; after_results; exact W1_arg7 m ρ c

/-! ## Region 1's exit (region 2's entry) -/

/-- The hidden layer after region 1. -/
theorem W3_v15 (c : Dev nD) : W3 m ρ c (Proc.devRef .tc main_v15)
    = biasRelu (aggr128 (mmA (m ((c : Thread nD τ).loc main_arg0)) (m ((c : Thread nD τ).loc main_arg4)))
        (m ((c : Thread nD τ).loc main_arg1)) (m ((c : Thread nD τ).loc main_arg2)) (m ((c : Thread nD τ).loc main_arg3)))
        (shapeCast S1x128 (m ((c : Thread nD τ).loc main_arg5)) shapeCasts_S128_S1x128) := by
  refine (W3_arr m ρ c 2).trans ((Hidden.final (V2 m ρ) c).trans ?_)
  show biasRelu (W2 m ρ c (Proc.devRef .tc main_v13)) (W2 m ρ c (Proc.devRef .tc main_v14)) = _
  rw [W2_v13, W2_v14]

theorem W3_arg1 (c : Dev nD) : W3 m ρ c (Proc.devRef .tc main_arg1) = m ((c : Thread nD τ).loc main_arg1) := (W3_of_ne m ρ c main_arg1 (by decide)).trans (W2_arg1 m ρ c)
theorem W3_arg2 (c : Dev nD) : W3 m ρ c (Proc.devRef .tc main_arg2) = m ((c : Thread nD τ).loc main_arg2) := (W3_of_ne m ρ c main_arg2 (by decide)).trans (W2_arg2 m ρ c)
theorem W3_arg3 (c : Dev nD) : W3 m ρ c (Proc.devRef .tc main_arg3) = m ((c : Thread nD τ).loc main_arg3) := (W3_of_ne m ρ c main_arg3 (by decide)).trans (W2_arg3 m ρ c)
theorem W3_arg6 (c : Dev nD) : W3 m ρ c (Proc.devRef .tc main_arg6) = m ((c : Thread nD τ).loc main_arg6) := (W3_of_ne m ρ c main_arg6 (by decide)).trans (W2_arg6 m ρ c)
theorem W3_arg7 (c : Dev nD) : W3 m ρ c (Proc.devRef .tc main_arg7) = m ((c : Thread nD τ).loc main_arg7) := (W3_of_ne m ρ c main_arg7 (by decide)).trans (W2_arg7 m ρ c)

/-! ## Region 2's exit -/

/-- The second product's array after region 2. -/
theorem W4_v16 (c : Dev nD) : W4 m ρ c (Proc.devRef .tc main_v16)
    = mmB (biasRelu (aggr128 (mmA (m ((c : Thread nD τ).loc main_arg0)) (m ((c : Thread nD τ).loc main_arg4)))
        (m ((c : Thread nD τ).loc main_arg1)) (m ((c : Thread nD τ).loc main_arg2)) (m ((c : Thread nD τ).loc main_arg3)))
        (shapeCast S1x128 (m ((c : Thread nD τ).loc main_arg5)) shapeCasts_S128_S1x128))
        (m ((c : Thread nD τ).loc main_arg6)) := by
  refine (W4_arr m ρ c 2).trans ((Layer2.final (V3 m ρ) c).trans ?_)
  show mmB (W3 m ρ c (Proc.devRef .tc main_v15)) (W3 m ρ c (Proc.devRef .tc main_arg6)) = _
  rw [W3_v15, W3_arg6]

theorem W4_arg1 (c : Dev nD) : W4 m ρ c (Proc.devRef .tc main_arg1) = m ((c : Thread nD τ).loc main_arg1) := (W4_of_ne m ρ c main_arg1 (by decide)).trans (W3_arg1 m ρ c)
theorem W4_arg2 (c : Dev nD) : W4 m ρ c (Proc.devRef .tc main_arg2) = m ((c : Thread nD τ).loc main_arg2) := (W4_of_ne m ρ c main_arg2 (by decide)).trans (W3_arg2 m ρ c)
theorem W4_arg3 (c : Dev nD) : W4 m ρ c (Proc.devRef .tc main_arg3) = m ((c : Thread nD τ).loc main_arg3) := (W4_of_ne m ρ c main_arg3 (by decide)).trans (W3_arg3 m ρ c)
theorem W4_arg7 (c : Dev nD) : W4 m ρ c (Proc.devRef .tc main_arg7) = m ((c : Thread nD τ).loc main_arg7) := (W4_of_ne m ρ c main_arg7 (by decide)).trans (W3_arg7 m ρ c)

/-! ## After the second stretch: the result -/

set_option maxHeartbeats 1000000 in
/-- The result buffer at the last boundary is `result` of the arguments as launched. -/
theorem value (c : Dev nD) : W5 m ρ c (Proc.devRef .tc main_v32)
    = result (m ((c : Thread nD τ).loc main_arg0)) (m ((c : Thread nD τ).loc main_arg1)) (m ((c : Thread nD τ).loc main_arg2))
        (m ((c : Thread nD τ).loc main_arg3)) (m ((c : Thread nD τ).loc main_arg4)) (m ((c : Thread nD τ).loc main_arg5))
        (m ((c : Thread nD τ).loc main_arg6)) (m ((c : Thread nD τ).loc main_arg7)) := by
  dsimp only [W5, hostOps3]
  after_results_simp
  rw [W4_v16, W4_arg1, W4_arg2, W4_arg3, W4_arg7]

end Cert.KernelIdeal.Whole

end
-- ==== Proof.RefBridge.lean ====
/-
  The reference's result is the kernel program's function of the arguments, over the extended reals.

  The reference computes, as one composed term: the dense product of the features with the first weights; the
  aggregation over the edges (rows gathered by wrapped source index, scaled by the edge weight, scatter-added by
  destination into zeros); the bias added through two broadcasts and the maximum with a zero array; the second
  dense product; the second aggregation; the output bias. The kernel program's function (`Whole.result`) is the
  same composition with three differences, each an identity on extended reals:

  * a host dense product is the sum over the contracted axis of the products of the operands' entries, which is
    how `mmA` and `mmB` are written;
  * the reference scales the gathered rows as weight · row, the kernel as row · weight: the product commutes;
  * the bias reaches the [1, 128] row by a broadcast in the reference and by a reshape in the kernel program:
    both read entry q of the bias at column q; and the zero the maximum is taken with is the same word.

  The gathers, the scatter-additions and the index wrapping are the same operations applied to equal operands, so
  nothing about them is opened.
-/
import proofs.«140864_j83099027243170_1_alg».proof.Proof.KernelValue
import proofs.«140864_j83099027243170_1_alg».proof.Proof.Gen.ReferenceIdeal.Read
import Idealize.ShloMosaic.Lib.Pipeline.Value
import Idealize.ShloMosaic.Lib.ValueIdx
import Idealize.ShloMosaic.PureOps.Ideal.Laws

set_option maxRecDepth 16384

noncomputable section

namespace Cert.ReferenceIdeal.Against

open Idealize.ShloMosaic Idealize.ShloMosaic.TcCoe Idealize.SL.Sem
open Cert.Spec

/-! ## The three identities -/

/-- The first host product is `mmA`. -/
theorem dot1_eq (x : FVec Ideal SN512 .f32) (w : FVec Ideal SW1 .f32) :
    Host.dotGeneral Cert.ReferenceIdeal.dot_S50000x512_S512x128_S50000x128_1_0_0_1_n_n none x w = mmA x w :=
  funext fun i => Cert.ReferenceIdeal.Read.val_main_v0_apply x w i

/-- The second host product is `mmB`, whatever its left factor. -/
theorem dot2_eq (h : FVec Ideal SN128 .f32) (w : FVec Ideal SW2 .f32) :
    Host.dotGeneral Cert.ReferenceIdeal.dot_S50000x128_S128x40_S50000x40_1_0_0_1_n_n none h w = mmB h w := by
  funext i
  simp only [Host.dotGeneral]
  rw [Ideal.dotGeneral_apply, ← Equiv.sum_comp (ValueIdx.contrEquiv1 Cert.ReferenceIdeal.dot_S50000x128_S128x40_S50000x40_1_0_0_1_n_n 128 rfl rfl).symm]
  show _ = ∑ k : Fin 128, h (lB i k) * w (rB i k)
  refine Finset.sum_congr rfl fun k _ => ?_
  have hk := ValueIdx.contrEquiv1_symm_val Cert.ReferenceIdeal.dot_S50000x128_S128x40_S50000x40_1_0_0_1_n_n 128 rfl rfl k
  have el : Cert.ReferenceIdeal.dot_S50000x128_S128x40_S50000x40_1_0_0_1_n_n.lhsIdx i ((ValueIdx.contrEquiv1 Cert.ReferenceIdeal.dot_S50000x128_S128x40_S50000x40_1_0_0_1_n_n 128 rfl rfl).symm k) = lB i k := funext fun a => Fin.ext (by
    match a with
    | ⟨0, _⟩ => exact Cert.ReferenceIdeal.Read.lhs_main_v18_0 _ _
    | ⟨1, _⟩ => exact (Cert.ReferenceIdeal.Read.lhs_main_v18_1 _ _).trans hk)
  have er : Cert.ReferenceIdeal.dot_S50000x128_S128x40_S50000x40_1_0_0_1_n_n.rhsIdx i ((ValueIdx.contrEquiv1 Cert.ReferenceIdeal.dot_S50000x128_S128x40_S50000x40_1_0_0_1_n_n 128 rfl rfl).symm k) = rB i k := funext fun a => Fin.ext (by
    match a with
    | ⟨0, _⟩ => exact (Cert.ReferenceIdeal.Read.rhs_main_v18_0 _ _).trans hk
    | ⟨1, _⟩ => exact Cert.ReferenceIdeal.Read.rhs_main_v18_1 _ _)
  rw [el, er]

/-- An entrywise product of two arrays of extended reals commutes. -/
theorem mulf_comm_ideal {s : Shape} (a b : FVec Ideal s .f32) : mulf a b = mulf b a :=
  funext fun i => mul_comm (a i) (b i)

/-- The reference's bias-then-maximum is `biasRelu` with the bias as the reshaped [1, 128] row. -/
theorem hidden_eq (s : FVec Ideal SN128 .f32) (b1 : FVec Ideal Cert.ReferenceIdeal.S128 .f32) :
    maximumf (addf s (broadcastInDim Cert.ReferenceIdeal.S50000x128 ![0, 1] Cert.ReferenceIdeal.Facts₀.bcast_S1x128_S50000x128_0_1
        (broadcastInDim Cert.ReferenceIdeal.S1x128 ![1] Cert.ReferenceIdeal.Facts₀.bcast_S128_S1x128_1 b1)))
      (broadcastInDim Cert.ReferenceIdeal.S50000x128 ![] Cert.ReferenceIdeal.Facts₀.bcast_S_S50000x128 (constant Cert.ReferenceIdeal.S_ .f32 0x00000000#32))
    = biasRelu s (shapeCast Cert.KernelIdeal.S1x128 b1 Cert.KernelIdeal.Facts₀.shapeCasts_S128_S1x128) := by
  funext i
  show max (s i + Cert.ReferenceIdeal.Read.val_main_v15 (F := Ideal) b1 i) (Cert.ReferenceIdeal.Read.val_main_call0_v0 (F := Ideal) i)
    = max (s i + shapeCast Cert.KernelIdeal.S1x128 b1 Cert.KernelIdeal.Facts₀.shapeCasts_S128_S1x128 (bI i)) (Ideal.ofBits .f32 0x00000000#32)
  rw [Cert.ReferenceIdeal.Read.val_main_v15_apply, Cert.ReferenceIdeal.Read.val_main_v14_apply,
    Cert.ReferenceIdeal.Read.val_main_call0_v0_apply, Cert.ReferenceIdeal.Read.val_main_call0_cst_apply,
    shapeCast_apply b1 Cert.KernelIdeal.Facts₀.shapeCasts_S128_S1x128 (bI i)
      (Cert.ReferenceIdeal.Read.idx_main_v14 (Cert.ReferenceIdeal.Read.idx_main_v15 i))
      (by rw [Shape.rowMajor_val_two, Shape.rowMajor_val_one]; show (i 1).val = 0 * 128 + (i 1).val; omega)]
  rfl

/-! ## The reference's aggregations are the kernel program's -/

/-- The reference's aggregation of a [50000, 128] array (weight · row) is the kernel program's (row · weight). -/
theorem aggr128_eq (M : FVec Ideal Cert.ReferenceIdeal.S50000x128 .f32)
    (row col : IVec Cert.ReferenceIdeal.S800000 32)
    (ew : FVec Ideal Cert.ReferenceIdeal.S800000 .f32) :
    Host.scatterAdd Cert.ReferenceIdeal.scatter_S50000x128_S800000x1_S800000x128_1_0_0_1
      (broadcastInDim Cert.ReferenceIdeal.S50000x128 ![] Cert.ReferenceIdeal.Facts₀.bcast_S_S50000x128 (constant Cert.ReferenceIdeal.S_ .f32 0x00000000#32))
      (broadcastInDim Cert.ReferenceIdeal.S800000x1 ![0] Cert.ReferenceIdeal.Facts₀.bcast_S800000_S800000x1_0 row)
      (mulf (broadcastInDim Cert.ReferenceIdeal.S800000x128 ![0, 1] Cert.ReferenceIdeal.Facts₀.bcast_S800000x1_S800000x128_0_1
          (broadcastInDim Cert.ReferenceIdeal.S800000x1 ![0] Cert.ReferenceIdeal.Facts₀.bcast_S800000_S800000x1_0 ew))
        (Host.gather Cert.ReferenceIdeal.gather_S50000x128_S800000x1_S800000x128_1_0_n_n_0_1_1128 M (Cert.KernelIdeal.Whole.srcCol col)))
    = Cert.KernelIdeal.Whole.aggr128 M row col ew := by
  rw [mulf_comm_ideal]
  rfl

/-- The same for a [50000, 40] array. -/
theorem aggr40_eq (M : FVec Ideal Cert.ReferenceIdeal.S50000x40 .f32)
    (row col : IVec Cert.ReferenceIdeal.S800000 32)
    (ew : FVec Ideal Cert.ReferenceIdeal.S800000 .f32) :
    Host.scatterAdd Cert.ReferenceIdeal.scatter_S50000x40_S800000x1_S800000x40_1_0_0_1
      (broadcastInDim Cert.ReferenceIdeal.S50000x40 ![] Cert.ReferenceIdeal.Facts₀.bcast_S_S50000x40 (constant Cert.ReferenceIdeal.S_ .f32 0x00000000#32))
      (broadcastInDim Cert.ReferenceIdeal.S800000x1 ![0] Cert.ReferenceIdeal.Facts₀.bcast_S800000_S800000x1_0 row)
      (mulf (broadcastInDim Cert.ReferenceIdeal.S800000x40 ![0, 1] Cert.ReferenceIdeal.Facts₀.bcast_S800000x1_S800000x40_0_1
          (broadcastInDim Cert.ReferenceIdeal.S800000x1 ![0] Cert.ReferenceIdeal.Facts₀.bcast_S800000_S800000x1_0 ew))
        (Host.gather Cert.ReferenceIdeal.gather_S50000x40_S800000x1_S800000x40_1_0_n_n_0_1_140 M (Cert.KernelIdeal.Whole.srcCol col)))
    = Cert.KernelIdeal.Whole.aggr40 M row col ew := by
  rw [mulf_comm_ideal]
  rfl

/-! ## The whole term -/

/-- The reference run's result term is `Whole.result` of the same arguments. -/
theorem result_eq (x : FVec Ideal Cert.ReferenceIdeal.S50000x512 .f32)
    (row col : IVec Cert.ReferenceIdeal.S800000 32)
    (ew : FVec Ideal Cert.ReferenceIdeal.S800000 .f32)
    (w1 : FVec Ideal Cert.ReferenceIdeal.S512x128 .f32)
    (b1 : FVec Ideal Cert.ReferenceIdeal.S128 .f32)
    (w2 : FVec Ideal Cert.ReferenceIdeal.S128x40 .f32)
    (b2 : FVec Ideal Cert.ReferenceIdeal.S40 .f32) :
    addf (Host.scatterAdd Cert.ReferenceIdeal.scatter_S50000x40_S800000x1_S800000x40_1_0_0_1
        (broadcastInDim Cert.ReferenceIdeal.S50000x40 ![] Cert.ReferenceIdeal.Facts₀.bcast_S_S50000x40 (constant Cert.ReferenceIdeal.S_ .f32 0x00000000#32))
        (broadcastInDim Cert.ReferenceIdeal.S800000x1 ![0] Cert.ReferenceIdeal.Facts₀.bcast_S800000_S800000x1_0 row)
        (mulf (broadcastInDim Cert.ReferenceIdeal.S800000x40 ![0, 1] Cert.ReferenceIdeal.Facts₀.bcast_S800000x1_S800000x40_0_1
            (broadcastInDim Cert.ReferenceIdeal.S800000x1 ![0] Cert.ReferenceIdeal.Facts₀.bcast_S800000_S800000x1_0 ew))
          (Host.gather Cert.ReferenceIdeal.gather_S50000x40_S800000x1_S800000x40_1_0_n_n_0_1_140
            (Host.dotGeneral Cert.ReferenceIdeal.dot_S50000x128_S128x40_S50000x40_1_0_0_1_n_n none
              (maximumf (addf
                  (Host.scatterAdd Cert.ReferenceIdeal.scatter_S50000x128_S800000x1_S800000x128_1_0_0_1
                    (broadcastInDim Cert.ReferenceIdeal.S50000x128 ![] Cert.ReferenceIdeal.Facts₀.bcast_S_S50000x128 (constant Cert.ReferenceIdeal.S_ .f32 0x00000000#32))
                    (broadcastInDim Cert.ReferenceIdeal.S800000x1 ![0] Cert.ReferenceIdeal.Facts₀.bcast_S800000_S800000x1_0 row)
                    (mulf (broadcastInDim Cert.ReferenceIdeal.S800000x128 ![0, 1] Cert.ReferenceIdeal.Facts₀.bcast_S800000x1_S800000x128_0_1
                        (broadcastInDim Cert.ReferenceIdeal.S800000x1 ![0] Cert.ReferenceIdeal.Facts₀.bcast_S800000_S800000x1_0 ew))
                      (Host.gather Cert.ReferenceIdeal.gather_S50000x128_S800000x1_S800000x128_1_0_n_n_0_1_1128
                        (Host.dotGeneral Cert.ReferenceIdeal.dot_S50000x512_S512x128_S50000x128_1_0_0_1_n_n none x w1)
                        (Cert.KernelIdeal.Whole.srcCol col))))
                  (broadcastInDim Cert.ReferenceIdeal.S50000x128 ![0, 1] Cert.ReferenceIdeal.Facts₀.bcast_S1x128_S50000x128_0_1
                    (broadcastInDim Cert.ReferenceIdeal.S1x128 ![1] Cert.ReferenceIdeal.Facts₀.bcast_S128_S1x128_1 b1)))
                (broadcastInDim Cert.ReferenceIdeal.S50000x128 ![] Cert.ReferenceIdeal.Facts₀.bcast_S_S50000x128 (constant Cert.ReferenceIdeal.S_ .f32 0x00000000#32)))
              w2)
            (Cert.KernelIdeal.Whole.srcCol col))))
      (broadcastInDim Cert.ReferenceIdeal.S50000x40 ![0, 1] Cert.ReferenceIdeal.Facts₀.bcast_S1x40_S50000x40_0_1
        (broadcastInDim Cert.ReferenceIdeal.S1x40 ![1] Cert.ReferenceIdeal.Facts₀.bcast_S40_S1x40_1 b2))
    = Cert.KernelIdeal.Whole.result x row col ew w1 b1 w2 b2 := by
  rw [dot1_eq, aggr128_eq, hidden_eq, dot2_eq, aggr40_eq]

end Cert.ReferenceIdeal.Against

end
-- ==== Proof.lean ====
/-
  A two-layer graph convolution, out = A · relu(A · (x · w1) + b1) · w2 + b2, where A is a sparse 50000 × 50000
  adjacency given as 800000 weighted edges (destination, source, weight) and A · M is computed by gathering the
  rows of M at the edges' sources, scaling each by its weight and scatter-adding them at the destinations.

  The kernel program computes the two dense products and the bias-and-positive-part step in three row-blocked
  kernels (2000 rows per grid point, 25 points each, the narrowing of the products' operands the identity over
  the extended reals) and the two aggregations on the host between them; the reference computes everything on
  the host. Over the extended reals both are the same composition:

  * each row block of a dense product depends only on the same rows of the left factor, so the 25 blocks
    assemble to the whole product, entry (r, j) the sum over k of left(r, k) · right(k, j) — which is what the
    host's dense product is as well;
  * the bias step is entry by entry, so its blocks assemble to max(s(r, j) + b1(j), 0);
  * the aggregations are the same gather and scatter-addition applied to equal arrays, the kernel program
    scaling row · weight where the reference scales weight · row.

  No step uses finiteness of the inputs: only commutativity of the product and the two readings of a dense
  product as the same sum. The kernel programs terminate without fault and leave their arguments unchanged by the
  generated frames of their three regions; the reference by its generated run; the idealization rewrote no
  operation, so `preserves` has nothing to state.
-/
import proofs.«140864_j83099027243170_1_alg».proof.Defs
import proofs.«140864_j83099027243170_1_alg».proof.Proof.Gen.Kernel
import proofs.«140864_j83099027243170_1_alg».proof.Proof.Gen.Kernel.Skeleton
import proofs.«140864_j83099027243170_1_alg».proof.Proof.Gen.Kernel.Launch
import proofs.«140864_j83099027243170_1_alg».proof.Proof.Gen.Kernel.Points
import proofs.«140864_j83099027243170_1_alg».proof.Proof.Gen.Kernel.Frame
import proofs.«140864_j83099027243170_1_alg».proof.Proof.Gen.KernelIdeal
import proofs.«140864_j83099027243170_1_alg».proof.Proof.Gen.KernelIdeal.Skeleton
import proofs.«140864_j83099027243170_1_alg».proof.Proof.Gen.KernelIdeal.Launch
import proofs.«140864_j83099027243170_1_alg».proof.Proof.Gen.KernelIdeal.Points
import proofs.«140864_j83099027243170_1_alg».proof.Proof.Gen.KernelIdeal.Frame
import proofs.«140864_j83099027243170_1_alg».proof.Proof.Gen.ReferenceIdeal
import proofs.«140864_j83099027243170_1_alg».proof.Proof.Gen.ReferenceIdeal.Run
import proofs.«140864_j83099027243170_1_alg».proof.Proof.Gen.ReferenceIdeal.Read
import proofs.«140864_j83099027243170_1_alg».proof.Proof.Gen.Pre_finite_inputs
import proofs.«140864_j83099027243170_1_alg».proof.Proof.KernelRun
import proofs.«140864_j83099027243170_1_alg».proof.Proof.KernelValue
import proofs.«140864_j83099027243170_1_alg».proof.Proof.RefBridge
import Idealize.ShloMosaic.Adequacy
import Idealize.ShloMosaic.Init

set_option maxRecDepth 16384

noncomputable section

namespace Cert.Proof

open Idealize.ShloMosaic Idealize.ShloMosaic.TcCoe Idealize.SL.Sem

/-- The word-level kernel program runs and keeps its arguments: the generated frame of its three regions. -/
theorem frame_kernel : Cert.frame_Kernel := fun m ρ _ => Cert.Kernel.Gen.frame m ρ

/-- So does the idealized kernel program. -/
theorem frame_kernelIdeal : Cert.frame_KernelIdeal := fun m ρ _ => Cert.KernelIdeal.Gen.frame m ρ

/-- The reference runs and keeps its arguments: its generated run, the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- The idealization rewrote nothing. -/
theorem preserves : Cert.preserves_Kernel_KernelIdeal := trivial

/-- From memories agreeing on the arguments, the idealized kernel program ends with its result at
    `Whole.result` of the arguments (the run with the result named, then the fold read back), and the reference
    at its composed term of the same arguments, which is the same function. -/
theorem algebraic : Cert.algebraic_KernelIdeal_ReferenceIdeal := by
  intro m ρ m' ρ' _ hagree
  refine ⟨fun c => Cert.KernelIdeal.Whole.result
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3))
      (m ((c.tc : Thread Cert.KernelIdeal.nD Cert.KernelIdeal.τ).loc Cert.KernelIdeal.main_arg4))
      (m ((c.tc : Thread Cert.KernelIdeal.nD Cert.KernelIdeal.τ).loc Cert.KernelIdeal.main_arg5))
      (m ((c.tc : Thread Cert.KernelIdeal.nD Cert.KernelIdeal.τ).loc Cert.KernelIdeal.main_arg6))
      (m ((c.tc : Thread Cert.KernelIdeal.nD Cert.KernelIdeal.τ).loc Cert.KernelIdeal.main_arg7)), ?_, ?_⟩
  · exact (θ_run Cert.KernelIdeal.defs _ _).mono
      (fun r h c => ⟨(h c).1.trans (Cert.KernelIdeal.Whole.value m ρ c), (h c).2⟩)
      (Cert.KernelIdeal.Result.run (F := Ideal) m ρ)
  · refine (θ_run Cert.ReferenceIdeal.defs _ _).mono (fun _ h c => ⟨(h c).1.trans ?_, (h c).2⟩)
      (Cert.ReferenceIdeal.Value.run (F := Ideal) m' ρ')
    rw [(hagree c).1, (hagree c).2.1, (hagree c).2.2.1, (hagree c).2.2.2.1, (hagree c).2.2.2.2.1,
      (hagree c).2.2.2.2.2.1, (hagree c).2.2.2.2.2.2.1, (hagree c).2.2.2.2.2.2.2]
    exact Cert.ReferenceIdeal.Against.result_eq _ _ _ _ _ _ _ _

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
